-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x1x8192 : Shape := ⟨3, ![4, 1, 8192]⟩
abbrev S1x1024x3 : Shape := ⟨3, ![1, 1024, 3]⟩
abbrev S1x1024x1 : Shape := ⟨3, ![1, 1024, 1]⟩
abbrev S1x1x8192 : Shape := ⟨3, ![1, 1, 8192]⟩
abbrev S1024x1 : Shape := ⟨2, ![1024, 1]⟩
abbrev S1x8192 : Shape := ⟨2, ![1, 8192]⟩
abbrev S1024x3 : Shape := ⟨2, ![1024, 3]⟩
abbrev S1024 : Shape := ⟨1, ![1024]⟩
abbrev S1x1024 : Shape := ⟨2, ![1, 1024]⟩
abbrev S3x1024 : Shape := ⟨2, ![3, 1024]⟩
abbrev S1024x1024 : Shape := ⟨2, ![1024, 1024]⟩
abbrev S4x8192 : Shape := ⟨2, ![4, 8192]⟩
abbrev S_ : Shape := ⟨0, ![]⟩

abbrev nBuf : Space → Nat
  | .hbm => 15
  | .vmem => 10
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x1x8192, .f32⟩
  | .hbm, ⟨4, _⟩ => ⟨S4x8192, .f32⟩
  | .hbm, ⟨5, _⟩ => ⟨S4x8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x1, .f32⟩
  | .local _ .vmem, ⟨5, _⟩ => ⟨S1x1024x1, .f32⟩
  | .local _ .vmem, ⟨6, _⟩ => ⟨S1x1x8192, .f32⟩
  | .local _ .vmem, ⟨7, _⟩ => ⟨S1x1x8192, .f32⟩
  | .local _ .vmem, ⟨8, _⟩ => ⟨S1024x1, .f32⟩
  | .local _ .vmem, ⟨9, _⟩ => ⟨S1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_mult1 (i : grid0.Coords) : BitVec 32 :=
  let arg2 : BitVec 32 := BitVec.ofNat 32 (i 2).val
  let c1024_i32 : BitVec 32 := 1024#32
  let v33 : BitVec 32 := Scalar.muli arg2 c1024_i32
  v33
def k0_cond3 (i : grid0.Coords) : BitVec 1 :=
  let arg1 : BitVec 32 := BitVec.ofNat 32 (i 1).val
  let c0_i32_14 : BitVec 32 := 0#32
  let v35 : BitVec 1 := Scalar.cmpi .eq arg1 c0_i32_14
  let v36 : BitVec 32 := Scalar.extui v35
  let c0_i32_15 : BitVec 32 := 0#32
  let v37 : BitVec 1 := Scalar.cmpi .ne v36 c0_i32_15
  v37

def k0_off1 (i : grid0.Coords) : Fin 2 → Nat :=
  let c0_22 : Index := 0#32
  let arg2 : BitVec 32 := BitVec.ofNat 32 (i 2).val
  let c1024_i32 : BitVec 32 := 1024#32
  let v33 : BitVec 32 := Scalar.muli arg2 c1024_i32
  let v34 : BitVec 32 := v33
  let v49 : Index := Scalar.indexCast v34
  ![0, v49.toNat]
def k0_cond4 (i : grid0.Coords) : BitVec 1 :=
  let arg1 : BitVec 32 := BitVec.ofNat 32 (i 1).val
  let c0_i32_16 : BitVec 32 := 0#32
  let v38 : BitVec 1 := Scalar.cmpi .ne arg1 c0_i32_16
  let v39 : BitVec 32 := Scalar.extui v38
  let c0_i32_17 : BitVec 32 := 0#32
  let v40 : BitVec 1 := Scalar.cmpi .ne v39 c0_i32_17
  v40

def k0_off2 (i : grid0.Coords) : Fin 2 → Nat :=
  let c0_22 : Index := 0#32
  let arg2 : BitVec 32 := BitVec.ofNat 32 (i 2).val
  let c1024_i32 : BitVec 32 := 1024#32
  let v33 : BitVec 32 := Scalar.muli arg2 c1024_i32
  let v34 : BitVec 32 := v33
  let v49 : Index := Scalar.indexCast v34
  ![0, v49.toNat]
def k0_cond5 (i : grid0.Coords) : BitVec 1 :=
  let arg2 : BitVec 32 := BitVec.ofNat 32 (i 2).val
  let c7_i32 : BitVec 32 := 7#32
  let v41 : BitVec 1 := Scalar.cmpi .eq arg2 c7_i32
  let v42 : BitVec 32 := Scalar.extui v41
  let c0_i32_18 : BitVec 32 := 0#32
  let v43 : BitVec 1 := Scalar.cmpi .ne v42 c0_i32_18
  v43

def k0_cond6 (i : grid0.Coords) : BitVec 1 :=
  let arg1 : BitVec 32 := BitVec.ofNat 32 (i 1).val
  let c7_i32_19 : BitVec 32 := 7#32
  let v44 : BitVec 1 := Scalar.cmpi .eq arg1 c7_i32_19
  let arg2 : BitVec 32 := BitVec.ofNat 32 (i 2).val
  let c7_i32_20 : BitVec 32 := 7#32
  let v45 : BitVec 1 := Scalar.cmpi .eq arg2 c7_i32_20
  let v46 : BitVec 1 := Scalar.andi v44 v45
  let v47 : BitVec 32 := Scalar.extui v46
  let c0_i32_21 : BitVec 32 := 0#32
  let v48 : BitVec 1 := Scalar.cmpi .ne v47 c0_i32_21
  v48

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  bitsLt_bf16_f32 : FTy.bits .bf16 < FTy.bits .f32
  reduces_S1024x3_S1024 : S1024x3.Reduces [1] S1024
  shapeCasts_S1024_S1024x1 : S1024.ShapeCasts S1024x1
  transposes_S1024x1_p1_0_S1x1024 : S1024x1.Transposes [1, 0] S1x1024
  transposes_S1024x3_p1_0_S3x1024 : S1024x3.Transposes [1, 0] S3x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1024x1024_S1024_2 : S1024x1024.Reduces [0] S1024
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S1x1024 : 0 < S1x1024.numel
  shapeCasts_S1x1024_S1x1024 : S1x1024.ShapeCasts S1x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x8192_S1x8192_0_0 : ∀ a, (![0, 0] : Fin 2 → Nat) a + S1x8192.size a ≤ S1x8192.size a
  h_S1x8192 : 0 < S1x8192.numel
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S1x8192 : S1x1x8192.ShapeCasts S1x8192
  shapeCasts_S1x8192_S1x1x8192 : S1x8192.ShapeCasts S1x1x8192
  shapeCasts_S4x8192x1_S4x8192 : S4x8192x1.ShapeCasts S4x8192
  shapeCasts_S4x1x8192_S4x8192 : S4x1x8192.ShapeCasts S4x8192
  reducesTo_S4x8192_S_d0_1 : S4x8192.ReducesTo [0, 1] S_
  h_S_ : 0 < S_.numel
  dot_S1024x3_S3x1024_S1024x1024_1_0_0_1_n_n_wf : DotDims.WF S1024x3 S3x1024 S1024x1024 [1] [0] [0] [1] [] []
  hrank0 : 0 < grid0.rank
  k0_mult1_dvd : ∀ i : grid0.Coords, 1024 ∣ (k0_mult1 i).toNat
  k0_off1_inb : ∀ i : grid0.Coords, ∀ (k0_h3 : k0_cond3 i = 1#1), ∀ a, (k0_off1 i) a + S1x1024.size a ≤ S1x8192.size a
  k0_off2_inb : ∀ i : grid0.Coords, ∀ (k0_h4 : k0_cond4 i = 1#1), ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S4x8192x3.size a
  hwx0_1 : ∀ i : grid0.Coords, EltTy.bits .f32 = 32 ∨ (Rect.block (s := S4x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x8192x1.size a
  hwx0_2 : ∀ i : grid0.Coords, EltTy.bits .f32 = 32 ∨ (Rect.block (s := S4x8192x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

def dot_S1024x3_S3x1024_S1024x1024_1_0_0_1_n_n : DotDims S1024x3 S3x1024 S1024x1024 where
  lhsContracting := [1]
  rhsContracting := [0]
  lhsNonContracting := [0]
  rhsNonContracting := [1]
  lhsBatch := []
  rhsBatch := []
  wf := dot_S1024x3_S3x1024_S1024x1024_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond5 i == 1#1) | 3 => fun i => !(k0_cond6 i == 1#1) | ⟨_ + 4, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BodyDefs.lean ====
/-
  The kernel's body read as mathematics, at any float instance: what one grid point does to the two carried scratch
  buffers (the running row minima of the clipped squared distances and the running column minima), those buffers'
  contents point by point, the invariant the region carries between points, and the pipeline's proof data.

  The grid is (batch, row tile, column tile) = 4 × 8 × 8 in row-major order, 1024 points of each cloud per tile.
-/
import proofs.«122788_j81475529605150_1_alg».proof.Proof.Gen.KernelIdeal.Frame
import proofs.«122788_j81475529605150_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Small facts about one store through a rectangle of a whole buffer -/

/-- Reading a whole buffer after ONE store through a rectangle: the payload inside the rectangle, the old contents
    outside it. -/
theorem read_writes_single_overlay {sg : RefSig} {κ : Kind} {sp : Space} {S : Shape} {e : EltTy} {Val : EltTy → Type}
    (mr : Memref sg κ sp S e) (h : mr.IsWhole) (s : S.Idx → Val e) (r : Rect S) (w : r.shape.Idx → Val e) :
    mr.view.read Val (mr.view.writes Val (h.unread s) [(⟨r, w⟩ : View.Piece Val S e)]) = r.overlay s w := by
  funext y
  by_cases hy : y ∈ r.set
  · obtain ⟨x, rfl⟩ := r.exists_idx_of_mem hy
    exact (View.read_writes_cons_emb mr.view (h.unread s) r w [] x).trans (Rect.overlay_emb r s w x).symm
  · rw [View.read_writes_apply_of_forall_not_mem _ _ y _ (fun p hp => by
      rw [List.mem_singleton] at hp; subst hp; exact hy), h.read_unread, Rect.overlay_of_not_mem _ _ _ hy]

theorem hz2 : (![0, 0] : Fin 2 → ℕ) = fun _ => 0 := by funext a; fin_cases a <;> rfl
theorem hz3 : (![0, 0, 0] : Fin 3 → ℕ) = fun _ => 0 := by funext a; fin_cases a <;> rfl

/-- Reading a whole buffer after ONE store through the whole-shape rectangle: the payload. -/
theorem read_writes_single_whole {sg : RefSig} {κ : Kind} {sp : Space} {S : Shape} {e : EltTy} {Val : EltTy → Type}
    (v : View sg κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  subst hz
  funext y
  have e := View.read_writes_cons_emb v f (Rect.whole S) w [] y
  rw [Rect.emb_whole_apply] at e
  exact e

/-! ## The body's conditions and what it leaves in the two carried scratch buffers -/

/-- The first conditional of the body: the third grid coordinate (the tile of the second cloud) is zero. -/
abbrev condA (i : grid0.Coords) : Prop := (Scalar.cmpi .ne (Scalar.extui (Scalar.cmpi .eq (BitVec.ofNat 32 (i 2).val) 0#32)) 0#32) = 1#1
/-- The second conditional: that coordinate is not zero. -/
abbrev condB (i : grid0.Coords) : Prop := (Scalar.cmpi .ne (Scalar.extui (Scalar.cmpi .ne (BitVec.ofNat 32 (i 2).val) 0#32)) 0#32) = 1#1

/-- The running row minima after a point: the tile's row minima at the first tile of a row sweep, else the
    minimum of those with what the scratch held. -/
def new0 (i : grid0.Coords) (x1 x2 : Vec F S1x1024x3 .f32) (s0 : Vec F S1024x1 .f32) : Vec F S1024x1 .f32 :=
  if condA i then k0_pay8 x1 x2 else k0_pay9 x1 x2 s0

/-- The running column minima after a point: inside the tile's 1024 columns the tile's column minima (first row tile of a
    batch) or their minimum with what the scratch held there (later row tiles); outside those columns what the scratch held. -/
def new1 (i : grid0.Coords) (x1 x2 : Vec F S1x1024x3 .f32) (s1 : Vec F S1x8192 .f32) : Vec F S1x8192 .f32 :=
  if h3 : k0_cond3 i = 1#1 then
    (Rect.unit (s := S1x8192) (k0_off1 i) S1x1024.size (k0_off1_inb i h3)).overlay s1 (k0_pay1 (k0_pay7 x1 x2))
  else if h4 : k0_cond4 i = 1#1 then
    (Rect.unit (s := S1x8192) (k0_off2 i) S1x1024.size (k0_off2_inb i h4)).overlay s1
      (k0_pay2 (k0_pay7 x1 x2) (View.ld s1 (Rect.unit (s := S1x8192) (k0_off2 i) S1x1024.size (k0_off2_inb i h4))))
  else s1

theorem new0_first (i : grid0.Coords) (x1 x2 : Vec F S1x1024x3 .f32) (s0 : Vec F S1024x1 .f32) (hA : condA i) :
    new0 i x1 x2 s0 = k0_pay8 x1 x2 := if_pos hA
theorem new0_later (i : grid0.Coords) (x1 x2 : Vec F S1x1024x3 .f32) (s0 : Vec F S1024x1 .f32) (hA : ¬condA i) :
    new0 i x1 x2 s0 = k0_pay9 x1 x2 s0 := if_neg hA
theorem new1_first (i : grid0.Coords) (x1 x2 : Vec F S1x1024x3 .f32) (s1 : Vec F S1x8192 .f32) (h3 : k0_cond3 i = 1#1) :
    new1 i x1 x2 s1 = (Rect.unit (s := S1x8192) (k0_off1 i) S1x1024.size (k0_off1_inb i h3)).overlay s1 (k0_pay1 (k0_pay7 x1 x2)) := dif_pos h3
theorem new1_later (i : grid0.Coords) (x1 x2 : Vec F S1x1024x3 .f32) (s1 : Vec F S1x8192 .f32) (h3 : ¬k0_cond3 i = 1#1) (h4 : k0_cond4 i = 1#1) :
    new1 i x1 x2 s1 = (Rect.unit (s := S1x8192) (k0_off2 i) S1x1024.size (k0_off2_inb i h4)).overlay s1
      (k0_pay2 (k0_pay7 x1 x2) (View.ld s1 (Rect.unit (s := S1x8192) (k0_off2 i) S1x1024.size (k0_off2_inb i h4)))) :=
  (dif_neg h3).trans (dif_pos h4)

/-! ## The conditions over the grid, decided -/

/-- The grid's 256 points are (batch, row tile, column tile) in row-major order: the column tile is the point's
    number mod 8, the row tile its number div 8 mod 8. The facts below are decided over the grid. -/
theorem gAB : ∀ t : Fin cfg0.N, condB (grid0.coords t) ↔ ¬condA (grid0.coords t) :=
  (by decide +kernel : ∀ t : Fin grid0.N, condB (grid0.coords t) ↔ ¬condA (grid0.coords t))
theorem g34 : ∀ t : Fin cfg0.N, k0_cond4 (grid0.coords t) = 1#1 ↔ ¬k0_cond3 (grid0.coords t) = 1#1 :=
  (by decide +kernel : ∀ t : Fin grid0.N, k0_cond4 (grid0.coords t) = 1#1 ↔ ¬k0_cond3 (grid0.coords t) = 1#1)
theorem gA5 : ∀ t : Fin cfg0.N, condA (grid0.coords t) → ¬k0_cond5 (grid0.coords t) = 1#1 :=
  (by decide +kernel : ∀ t : Fin grid0.N, condA (grid0.coords t) → ¬k0_cond5 (grid0.coords t) = 1#1)
theorem g65 : ∀ t : Fin cfg0.N, k0_cond6 (grid0.coords t) = 1#1 → k0_cond5 (grid0.coords t) = 1#1 ∧ ¬k0_cond3 (grid0.coords t) = 1#1 :=
  (by decide +kernel : ∀ t : Fin grid0.N, k0_cond6 (grid0.coords t) = 1#1 → k0_cond5 (grid0.coords t) = 1#1 ∧ ¬k0_cond3 (grid0.coords t) = 1#1)

/-- The first column tile of a row sweep. -/
theorem hcondA : ∀ t : Fin cfg0.N, condA (grid0.coords t) ↔ t.val % 8 = 0 :=
  (by decide +kernel : ∀ t : Fin grid0.N, condA (grid0.coords t) ↔ t.val % 8 = 0)
/-- The first row tile of a batch. -/
theorem hcond3 : ∀ t : Fin cfg0.N, k0_cond3 (grid0.coords t) = 1#1 ↔ t.val / 8 % 8 = 0 :=
  (by decide +kernel : ∀ t : Fin grid0.N, k0_cond3 (grid0.coords t) = 1#1 ↔ t.val / 8 % 8 = 0)
/-- The last column tile of a row sweep. -/
theorem hcond5 : ∀ t : Fin cfg0.N, k0_cond5 (grid0.coords t) = 1#1 ↔ t.val % 8 = 7 :=
  (by decide +kernel : ∀ t : Fin grid0.N, k0_cond5 (grid0.coords t) = 1#1 ↔ t.val % 8 = 7)
/-- The last point of a batch. -/
theorem hcond6 : ∀ t : Fin cfg0.N, k0_cond6 (grid0.coords t) = 1#1 ↔ t.val % 64 = 63 :=
  (by decide +kernel : ∀ t : Fin grid0.N, k0_cond6 (grid0.coords t) = 1#1 ↔ t.val % 64 = 63)
/-- The columns a point's tile covers start at 1024 times its column tile. -/
theorem hoff1 : ∀ t : Fin cfg0.N, k0_off1 (grid0.coords t) = ![0, t.val % 8 * 1024] :=
  (by decide +kernel : ∀ t : Fin grid0.N, k0_off1 (grid0.coords t) = ![0, t.val % 8 * 1024])
theorem hoff2 : ∀ t : Fin cfg0.N, k0_off2 (grid0.coords t) = ![0, t.val % 8 * 1024] :=
  (by decide +kernel : ∀ t : Fin grid0.N, k0_off2 (grid0.coords t) = ![0, t.val % 8 * 1024])

/-- Where the windows are idle: the inputs never; the row-minimum output except at a sweep's last column tile; the
    column-minimum output except at a batch's last point; and an idle point does not write back. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, k0_cond5 (grid0.coords t) = 1#1 → cfg0.idle 2 (grid0.coords t) = false := by decide +kernel
theorem idle2 : ∀ t : Fin cfg0.N, ¬k0_cond5 (grid0.coords t) = 1#1 → cfg0.idle 2 (grid0.coords t) = true := by decide +kernel
theorem noFlush2 : ∀ t : Fin cfg0.N, ¬k0_cond5 (grid0.coords t) = 1#1 → (cfg0.win 2).flush t = false := by decide +kernel
theorem live3 : ∀ t : Fin cfg0.N, k0_cond6 (grid0.coords t) = 1#1 → cfg0.idle 3 (grid0.coords t) = false := by decide +kernel
theorem idle3 : ∀ t : Fin cfg0.N, ¬k0_cond6 (grid0.coords t) = 1#1 → cfg0.idle 3 (grid0.coords t) = true := by decide +kernel
theorem noFlush3 : ∀ t : Fin cfg0.N, ¬k0_cond6 (grid0.coords t) = 1#1 → (cfg0.win 3).flush t = false := by decide +kernel

/-! ## The memrefs the pipeline passes, and the input blocks -/

variable (m : (ℓ : Loc nD τ sig) → Buf (Elt F) ℓ) (ρ : Dev nD → PrngReg)

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The two scratch buffers: the running row minima and the running column minima. -/
abbrev scM0 : Memref sig .tc .vmem S1024x1 .f32 := Memref.whole cc0_scratch0
abbrev scM1 : Memref sig .tc .vmem S1x8192 .f32 := Memref.whole cc0_scratch1

/-- The block of the first cloud a point reads (1024 points of its batch's row tile), and of the second (of its column tile). -/
abbrev xb1 (c : Dev nD) (t : Fin cfg0.N) : Vec F S1x1024x3 .f32 := iblk m c 0 t
abbrev xb2 (c : Dev nD) (t : Fin cfg0.N) : Vec F S1x1024x3 .f32 := iblk m c 1 t

/-- Contents nothing depends on: what a scratch buffer is taken to hold before the first point. -/
def junk0 : Vec F S1024x1 .f32 := fun _ => Classical.choice (Elt.nonempty F _)
def junk1 : Vec F S1x8192 .f32 := fun _ => Classical.choice (Elt.nonempty F _)

/-- The running row minima after point `n`. -/
def sc0At (c : Dev nD) : (n : ℕ) → n < cfg0.N → Vec F S1024x1 .f32
  | 0, hn => new0 (grid0.coords ⟨0, hn⟩) (xb1 m c ⟨0, hn⟩) (xb2 m c ⟨0, hn⟩) junk0
  | n + 1, hn => new0 (grid0.coords ⟨n + 1, hn⟩) (xb1 m c ⟨n + 1, hn⟩) (xb2 m c ⟨n + 1, hn⟩) (sc0At c n (Nat.lt_of_succ_lt hn))

/-- The running column minima after point `n` (over arbitrary contents in the columns no point has reached yet). -/
def sc1At (c : Dev nD) : (n : ℕ) → n < cfg0.N → Vec F S1x8192 .f32
  | 0, hn => new1 (grid0.coords ⟨0, hn⟩) (xb1 m c ⟨0, hn⟩) (xb2 m c ⟨0, hn⟩) junk1
  | n + 1, hn => new1 (grid0.coords ⟨n + 1, hn⟩) (xb1 m c ⟨n + 1, hn⟩) (xb2 m c ⟨n + 1, hn⟩) (sc1At c n (Nat.lt_of_succ_lt hn))

theorem sc0At_succ (c : Dev nD) (n : ℕ) (hn : n + 1 < cfg0.N) :
    sc0At m c (n + 1) hn = new0 (grid0.coords ⟨n + 1, hn⟩) (xb1 m c ⟨n + 1, hn⟩) (xb2 m c ⟨n + 1, hn⟩) (sc0At m c n (Nat.lt_of_succ_lt hn)) := rfl
theorem sc1At_succ (c : Dev nD) (n : ℕ) (hn : n + 1 < cfg0.N) :
    sc1At m c (n + 1) hn = new1 (grid0.coords ⟨n + 1, hn⟩) (xb1 m c ⟨n + 1, hn⟩) (xb2 m c ⟨n + 1, hn⟩) (sc1At m c n (Nat.lt_of_succ_lt hn)) := rfl
theorem sc0At_zero (c : Dev nD) (hn : 0 < cfg0.N) :
    sc0At m c 0 hn = new0 (grid0.coords ⟨0, hn⟩) (xb1 m c ⟨0, hn⟩) (xb2 m c ⟨0, hn⟩) junk0 := rfl
theorem sc1At_zero (c : Dev nD) (hn : 0 < cfg0.N) :
    sc1At m c 0 hn = new1 (grid0.coords ⟨0, hn⟩) (xb1 m c ⟨0, hn⟩) (xb2 m c ⟨0, hn⟩) junk1 := rfl

/-- Column `y` of the column-minimum scratch has been reached by some point up to `n`: its tile (the column div 1024)
    is at most `n` (the first eight points reach the eight tiles in order; every later point finds all reached). -/
def Cov (n : ℕ) (y : S1x8192.Idx) : Prop := (y 1).val / 1024 ≤ n

/-! ## The invariant carried between points, and the proof data -/

/-- The region's invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point `n`: at the first point the launch's invariant (both scratch buffers at anything); afterwards the
    row-minimum scratch at the running row minima after the point before, the column-minimum scratch at contents that
    agree with the running column minima on every column reached so far, and the generator register at some state. -/
def PhiS (c : Dev nD) : (n : ℕ) → n ≤ cfg0.N → sProp 𝕄
  | 0, _ => Pipeline.ΦA spec0 c
  | n + 1, hn => iprop(iprop(owns (c : Thread nD τ) scM0 fullShare (sc0At m c n hn)
      ∗ (∃ X : Vec F S1x8192 .f32, ⌜∀ y, Cov n y → X y = sc1At m c n hn y⌝ ∗ owns (c : Thread nD τ) scM1 fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (sc0At m c n hn)
      ∗ (∃ X : Vec F S1x8192 .f32, ⌜∀ y, Cov n y → X y = sc1At m c n hn y⌝ ∗ owns (c : Thread nD τ) scM1 fullShare X)) ∗ (∃ r, prngReg c r)) := rfl

theorem PhiS_pos (c : Dev nD) (n : ℕ) (h : n ≤ cfg0.N) (hz : n ≠ 0) :
    PhiS m c n h = iprop(iprop(owns (c : Thread nD τ) scM0 fullShare (sc0At m c (n - 1) (by omega))
      ∗ (∃ X : Vec F S1x8192 .f32, ⌜∀ y, Cov (n - 1) y → X y = sc1At m c (n - 1) (by omega) y⌝ ∗ owns (c : Thread nD τ) scM1 fullShare X)) ∗ (∃ r, prngReg c r)) := by
  cases n with
  | zero => exact absurd rfl hz
  | succ n => rfl

/-- The proof data of the one pipeline on core `c`: the arrays as the region finds them; after the body at point `t` each
    input's buffer at its block, the row-minimum output's at the running row minima after `t` and the column-minimum
    output's at the running column minima after `t` (each consulted only where the point writes the buffer); the invariant
    above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (sc0At m c t.val t.isLt)
    | ⟨3, _⟩ => k0_pay4 (sc1At m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (sc0At m c t.val t.isLt) := by dsimp only [dats]
theorem after0_3 (c : Dev nD) (t : Fin cfg0.N) : (dats m 0 c).after 3 t = k0_pay4 (sc1At m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.KernelIdeal.Body

end
-- ==== Proof.BodyTriple.lean ====
/-
  The kernel's body run on any whole memrefs, at any float instance: one theorem, proved control case by control case
  (the first column tile or a later one; the first row tile or a later one; whether the point writes the row-minimum
  output; whether it writes the column-minimum output).
-/
import proofs.«122788_j81475529605150_1_alg».proof.Proof.BodyDefs
import proofs.«122788_j81475529605150_1_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any whole memrefs -/

set_option hygiene false in
/-- One control case of the body: the branches decided by the case's hypotheses, the run, and each buffer handed to the
    continuation at the contents stated (an untouched buffer as it was; a stored one read back through its one store). -/
local macro "body_case" : tactic => `(tactic| (
    (first | rw [new0_first i x1 x2 s0 hA] | rw [new0_later i x1 x2 s0 hA])
    (first | rw [new1_first i x1 x2 s1 h3] | rw [new1_later i x1 x2 s1 h3 (h34.mpr h3)])
    (first | rw [if_pos h5] | rw [if_neg h5])
    (first | rw [if_pos h6] | rw [if_neg h6])
    simp only [cc0__chamfer_kernel_eq_skeleton]; unfold cc0__chamfer_kernel_skel
    simp only [k0_part1_eq_skeleton]; unfold k0_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hA | exact h3 | exact h5 | exact h6 | exact hAB.mpr hA | exact fun hb => (hAB.mp hb) hA | exact h34.mpr h3 | exact fun h => (h34.mp h) h3)
    sl_step
    iapply Hk
    isplitl [H3]
    · iexists _; isplitr; swap; · iexact H3
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H4]
    · iexists _; isplitr; swap; · iexact H4
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H5]
    · iexists _; isplitr; swap; · iexact H5
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H6]
    · iexists _; isplitr; swap; · iexact H6
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H7]
    · iexists _; isplitr; swap; · iexact H7
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    · iexists _; isplitr; swap; · iexact H8
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl))

set_option maxHeartbeats 1000000 in
/-- The body at a grid point whose conditions are related as they are on the grid (the two complementary pairs; the
    row-minimum output written only at the last column tile, the column-minimum output only at the very last point of a
    batch): from the two input blocks, the two output buffers at anything and the two scratch buffers at their contents,
    it runs to the inputs unchanged, the scratch buffers at the updated running minima, and each output buffer at the
    corresponding scratch's new contents where the point writes it, untouched elsewhere. -/
theorem body_run (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x1024x1 .f32) (harg5 : arg5.IsWhole) (arg6 : Memref sig .tc .vmem S1x1x8192 .f32) (harg6 : arg6.IsWhole)
    (arg7 : Memref sig .tc .vmem S1024x1 .f32) (harg7 : arg7.IsWhole) (arg8 : Memref sig .tc .vmem S1x8192 .f32) (harg8 : arg8.IsWhole)
    (hAB : condB i ↔ ¬condA i) (h34 : k0_cond4 i = 1#1 ↔ ¬k0_cond3 i = 1#1)
    (hA5 : condA i → ¬k0_cond5 i = 1#1) (h65 : k0_cond6 i = 1#1 → k0_cond5 i = 1#1 ∧ ¬k0_cond3 i = 1#1)
    (x1 : Vec F S1x1024x3 .f32) (x2 : Vec F S1x1024x3 .f32) (o2 : Vec F S1x1024x1 .f32) (o3 : Vec F S1x1x8192 .f32)
    (s0 : Vec F S1024x1 .f32) (s1 : Vec F S1x8192 .f32) (E : Set ℕ) (K : PUnit → sProp 𝕄) :
    iprop(owns (c : Thread nD τ) arg3 fullShare x1 ∗ owns (c : Thread nD τ) arg4 fullShare x2 ∗ owns (c : Thread nD τ) arg5 fullShare o2
        ∗ owns (c : Thread nD τ) arg6 fullShare o3 ∗ owns (c : Thread nD τ) arg7 fullShare s0 ∗ owns (c : Thread nD τ) arg8 fullShare s1
        ∗ (iprop(owns (c : Thread nD τ) arg3 fullShare x1 ∗ owns (c : Thread nD τ) arg4 fullShare x2
            ∗ owns (c : Thread nD τ) arg5 fullShare (if k0_cond5 i = 1#1 then k0_pay3 (new0 i x1 x2 s0) else o2)
            ∗ owns (c : Thread nD τ) arg6 fullShare (if k0_cond6 i = 1#1 then k0_pay4 (new1 i x1 x2 s1) else o3)
            ∗ owns (c : Thread nD τ) arg7 fullShare (new0 i x1 x2 s0) ∗ owns (c : Thread nD τ) arg8 fullShare (new1 i x1 x2 s1)) -∗ K ⟨⟩))
      ⊢ wp frame (wpE (defs₀ (F := F)) Variants.none c none) E (cc0__chamfer_kernel i arg3 harg3 arg4 harg4 arg5 harg5 arg6 harg6 arg7 harg7 arg8 harg8) K := by
  by_cases hA : condA i
  · have h5 : ¬k0_cond5 i = 1#1 := hA5 hA
    have h6 : ¬k0_cond6 i = 1#1 := fun h => h5 (h65 h).1
    by_cases h3 : k0_cond3 i = 1#1
    · body_case
    · body_case
  · by_cases h5 : k0_cond5 i = 1#1
    · by_cases h6 : k0_cond6 i = 1#1
      · have h3 : ¬k0_cond3 i = 1#1 := (h65 h6).2
        body_case
      · by_cases h3 : k0_cond3 i = 1#1
        · body_case
        · body_case
    · have h6 : ¬k0_cond6 i = 1#1 := fun h => h5 (h65 h).1
      by_cases h3 : k0_cond3 i = 1#1
      · body_case
      · body_case

end Cert.KernelIdeal.Body

end
-- ==== Proof.BodyRun.lean ====
/-
  The region's frame, at any float instance: one step of the two running minima (what the invariant needs from a point to
  the next), the body obligation at every point, the launch, and the frame.
-/
import proofs.«122788_j81475529605150_1_alg».proof.Proof.BodyDefs
import proofs.«122788_j81475529605150_1_alg».proof.Proof.BodyTriple

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## One step of the two running minima -/

/-- The running row minima after point `t` are the body's update of what the scratch held, whatever it held at the first
    point (which stores the tile's row minima outright). -/
theorem sc0_step (c : Dev nD) (t : Fin cfg0.N) (s : Vec F S1024x1 .f32)
    (hs : ∀ hz : t.val ≠ 0, s = sc0At m c (t.val - 1) (by omega)) :
    new0 (grid0.coords t) (xb1 m c t) (xb2 m c t) s = sc0At m c t.val t.isLt := by
  obtain ⟨n, hn⟩ := t
  cases n with
  | zero =>
    have hA : condA (grid0.coords ⟨0, hn⟩) := (hcondA ⟨0, hn⟩).mpr (Nat.zero_mod _)
    rw [sc0At_zero, new0_first _ _ _ _ hA, new0_first _ _ _ _ hA]
  | succ n => rw [hs (Nat.succ_ne_zero n)]; rfl

/-- A column is inside the tile point `t` stores into exactly when its tile is the point's column tile. -/
theorem mem_tile_iff (t : Fin cfg0.N) (off : Fin 2 → ℕ) (hoff : off = ![0, t.val % 8 * 1024])
    (inb : ∀ a, off a + S1x1024.size a ≤ S1x8192.size a) (y : S1x8192.Idx) :
    y ∈ (Rect.unit (s := S1x8192) off S1x1024.size inb).set ↔ (y 1).val / 1024 = t.val % 8 := by
  subst hoff
  rw [Rect.mem_set_unit]
  constructor
  · intro h
    have h1 := h 1
    simp only [Matrix.cons_val_one, Matrix.cons_val_zero, Matrix.head_cons] at h1
    have : (S1x1024.size 1) = 1024 := rfl
    omega
  · intro h a
    fin_cases a
    · have := (y 0).isLt
      show (0 : ℕ) ≤ (y 0).val ∧ (y 0).val < 0 + 1
      have h0 : S1x8192.size 0 = 1 := rfl
      omega
    · show t.val % 8 * 1024 ≤ (y 1).val ∧ (y 1).val < t.val % 8 * 1024 + 1024
      omega

/-- Inside a rectangle an overlay does not depend on what it overlays. -/
theorem overlay_congr_mem {S : Shape} {α : Type} (r : Rect S) (X X' : S.Idx → α) (w : r.shape.Idx → α) (y : S.Idx)
    (hy : y ∈ r.set) : r.overlay X w y = r.overlay X' w y := by
  obtain ⟨x, rfl⟩ := r.exists_idx_of_mem hy
  exact (Rect.overlay_emb r X w x).trans (Rect.overlay_emb r X' w x).symm

theorem sc1At_pos (c : Dev nD) (t : Fin cfg0.N) (hz : t.val ≠ 0) :
    sc1At m c t.val t.isLt = new1 (grid0.coords t) (xb1 m c t) (xb2 m c t) (sc1At m c (t.val - 1) (by omega)) := by
  obtain ⟨n, hn⟩ := t
  cases n with
  | zero => exact absurd rfl hz
  | succ n => rfl

theorem sc1At_first (c : Dev nD) (t : Fin cfg0.N) (hz : t.val = 0) :
    sc1At m c t.val t.isLt = new1 (grid0.coords t) (xb1 m c t) (xb2 m c t) junk1 := by
  obtain ⟨n, hn⟩ := t
  cases n with
  | zero => rfl
  | succ n => exact absurd hz (Nat.succ_ne_zero n)

/-- The running column minima after point `t`, on every column reached so far, are the body's update of contents that
    agreed with them on every column reached before: inside the point's tile the update does not look at the old
    contents at the first row tile, and at a later row tile every column has been reached; outside the tile the old
    contents stay. -/
theorem sc1_step (c : Dev nD) (t : Fin cfg0.N) (X : Vec F S1x8192 .f32)
    (hX : ∀ hz : t.val ≠ 0, ∀ y, Cov (t.val - 1) y → X y = sc1At m c (t.val - 1) (by omega) y) :
    ∀ y, Cov t.val y → new1 (grid0.coords t) (xb1 m c t) (xb2 m c t) X y = sc1At m c t.val t.isLt y := by
  have hN : t.val < 256 := lt_of_lt_of_eq t.isLt (show cfg0.N = 256 from N_0)
  have h8 : S1x8192.size 1 = 8192 := rfl
  intro y hy
  unfold Cov at hy
  have hy1 : (y 1).val < S1x8192.size 1 := (y 1).isLt
  by_cases h3 : k0_cond3 (grid0.coords t) = 1#1
  · have h3' := (hcond3 t).mp h3
    by_cases hz : t.val = 0
    · rw [sc1At_first m c t hz, new1_first _ _ _ _ h3, new1_first _ _ _ _ h3]
      exact overlay_congr_mem _ _ _ _ y ((mem_tile_iff t _ (hoff1 t) _ y).mpr (by omega))
    · rw [sc1At_pos m c t hz, new1_first _ _ _ _ h3, new1_first _ _ _ _ h3]
      by_cases hmem : y ∈ (Rect.unit (s := S1x8192) (k0_off1 (grid0.coords t)) S1x1024.size (k0_off1_inb _ h3)).set
      · exact overlay_congr_mem _ _ _ _ y hmem
      · rw [Rect.overlay_of_not_mem _ _ _ hmem, Rect.overlay_of_not_mem _ _ _ hmem]
        have hne := mt (mem_tile_iff t _ (hoff1 t) _ y).mpr hmem
        exact hX hz y (by unfold Cov; omega)
  · have h3' := mt (hcond3 t).mpr h3
    have hz : t.val ≠ 0 := fun h => h3' (by rw [h])
    have hXe : X = sc1At m c (t.val - 1) (by omega) := funext fun y' => hX hz y' (by
      unfold Cov
      have : (y' 1).val < S1x8192.size 1 := (y' 1).isLt
      omega)
    rw [sc1At_pos m c t hz, hXe]

/-! ## The body obligation -/

/-- The invariant before point `t`, opened: the two scratch buffers at contents that, after the first point, are the
    running row minima after the point before and agree with the running column minima on every column reached. -/
theorem Phi_open (c : Dev nD) (t : Fin cfg0.N) :
    (dats m 0 c).Φ t.castSucc ⊢ (iprop(∃ (s0 : Vec F S1024x1 .f32) (X : Vec F S1x8192 .f32),
      ⌜(∀ hz : t.val ≠ 0, s0 = sc0At m c (t.val - 1) (by omega))
        ∧ (∀ hz : t.val ≠ 0, ∀ y, Cov (t.val - 1) y → X y = sc1At m c (t.val - 1) (by omega) y)⌝
      ∗ owns (c : Thread nD τ) scM0 fullShare s0 ∗ owns (c : Thread nD τ) scM1 fullShare X ∗ (∃ r, prngReg c r)) : sProp 𝕄) := by
  rw [PhiS_castSucc]
  by_cases hz : t.val = 0
  · rw [PhiS_zero m c _ _ hz, PhiA0_eq]
    iintro ⟨⟨⟨%d0, H0⟩, ⟨%d1, H1⟩⟩, Hg⟩
    iexists d0; iexists d1
    isplitr
    · ipureintro; exact ⟨fun h => absurd hz h, fun h => absurd hz h⟩
    isplitl [H0]; · iexact H0
    isplitl [H1]; · iexact H1
    iexact Hg
  · rw [PhiS_pos m c _ _ hz]
    iintro ⟨⟨H0, ⟨%X, %hX, H1⟩⟩, Hg⟩
    iexists _; iexists X
    isplitr
    · ipureintro; exact ⟨fun _ => rfl, fun _ => hX⟩
    isplitl [H0]; · iexact H0
    isplitl [H1]; · iexact H1
    iexact Hg

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option hygiene false in
/-- The common part of the three cases of which outputs a point writes: the invariant opened, the body run, the
    invariant closed at the next point's contents, the inputs handed back at their blocks. -/
local macro "sound_open" : tactic => `(tactic| (
    iintro ⟨HΦ, Ho, ⟨%d0, H0⟩, ⟨%d1, H1⟩, ⟨%d2, H2⟩, ⟨%d3, H3⟩⟩
    ihave HΦ' := (Phi_open m c t) $$ HΦ
    icases HΦ' with ⟨%s0, %X, %hsX, HS0, HS1, Hg⟩
    rw [← sc0_step m c t s0 hsX.1]
    iapply (body_run c (grid0.coords t) (ms0_0 t) (hs0_0 t) (ms0_1 t) (hs0_1 t) (ms0_2 t) (hs0_2 t) (ms0_3 t) (hs0_3 t)
      scM0 (Memref.isWhole_whole _) scM1 (Memref.isWhole_whole _) (gAB t) (g34 t) (gA5 t) (g65 t)
      (xb1 m c t) (xb2 m c t) _ _ s0 X Set.univ _)
    isplitl [H0]; · iexact H0
    isplitl [H1]; · iexact H1
    isplitl [H2]; · iexact H2
    isplitl [H3]; · iexact H3
    isplitl [HS0]; · iexact HS0
    isplitl [HS1]; · iexact HS1))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  by_cases h5 : k0_cond5 (grid0.coords t) = 1#1
  · rw [show (dats m 0 c).leavesExact 2 t = owns (c : Thread nD τ) (ms0_2 t) fullShare ((dats m 0 c).after 2 t) from by
      unfold Dat.leavesExact; rw [live2 t h5], after0_2]
    by_cases h6 : k0_cond6 (grid0.coords t) = 1#1
    · rw [show (dats m 0 c).leavesExact 3 t = owns (c : Thread nD τ) (ms0_3 t) fullShare ((dats m 0 c).after 3 t) from by
        unfold Dat.leavesExact; rw [live3 t h6], after0_3]
      sound_open
      have hfull : new1 (grid0.coords t) (xb1 m c t) (xb2 m c t) X = sc1At m c t.val t.isLt :=
        funext fun y => sc1_step m c t X hsX.2 y (by
          unfold Cov; have h63 := (hcond6 t).mp h6; have hy := (y 1).isLt
          have h8 : S1x8192.size 1 = 8192 := rfl
          omega)
      rw [if_pos h5, if_pos h6, hfull]
      iintro ⟨H0, H1, H2, H3, HS0, HS1⟩
      isplitl [HS0 HS1 Hg]
      · isplitl [HS0 HS1]
        · isplitl [HS0]; · iexact HS0
          iexists _; isplitr
          · ipureintro; exact fun y _ => rfl
          iexact HS1
        iexact Hg
      isplitl [Ho]; · iexact Ho
      isplitl [H0]; · iexact H0
      isplitl [H1]; · iexact H1
      isplitl [H2]; · iexact H2
      iexact H3
    · rw [Dat.leavesExact_idle (dats m 0 c) 3 t (idle3 t h6) (noFlush3 t h6)]
      sound_open
      rw [if_pos h5, if_neg h6]
      iintro ⟨H0, H1, H2, H3, HS0, HS1⟩
      isplitl [HS0 HS1 Hg]
      · isplitl [HS0 HS1]
        · isplitl [HS0]; · iexact HS0
          iexists _; isplitr
          · ipureintro; exact sc1_step m c t X hsX.2
          iexact HS1
        iexact Hg
      isplitl [Ho]; · iexact Ho
      isplitl [H0]; · iexact H0
      isplitl [H1]; · iexact H1
      isplitl [H2]; · iexact H2
      iexists _; iexact H3
  · have h6 : ¬k0_cond6 (grid0.coords t) = 1#1 := fun h => h5 (g65 t h).1
    rw [Dat.leavesExact_idle (dats m 0 c) 2 t (idle2 t h5) (noFlush2 t h5)]
    rw [Dat.leavesExact_idle (dats m 0 c) 3 t (idle3 t h6) (noFlush3 t h6)]
    sound_open
    rw [if_neg h5, if_neg h6]
    iintro ⟨H0, H1, H2, H3, HS0, HS1⟩
    isplitl [HS0 HS1 Hg]
    · isplitl [HS0 HS1]
      · isplitl [HS0]; · iexact HS0
        iexists _; isplitr
        · ipureintro; exact sc1_step m c t X hsX.2
        iexact HS1
      iexact Hg
    isplitl [Ho]; · iexact Ho
    isplitl [H0]; · iexact H0
    isplitl [H1]; · iexact H1
    isplitl [H2]; · iexists _; iexact H2
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch buffers' named contents are forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hN, PhiA0_eq]
  iintro ⟨⟨HS0, ⟨%X, %hX, HS1⟩⟩, Hg⟩
  isplitl [HS0 HS1]
  · isplitl [HS0]
    · iexists _; iexact HS0
    iexists _; iexact HS1
  iexact Hg

/-! ## The run and the frame -/

set_option backward.isDefEq.respectTransparency.types false in
/-- At the compiled mesh, for any values, from any memory with zero counters: every weakly fair execution of the program
    terminates, and every final state has every array of the pipeline at what the library computes from the proof data
    and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyDefsBits.lean ====
/-
  The kernel's body read as mathematics, at any float instance: what one grid point does to the two carried scratch
  buffers (the running row minima of the clipped squared distances and the running column minima), those buffers'
  contents point by point, the invariant the region carries between points, and the pipeline's proof data.

  The grid is (batch, row tile, column tile) = 4 × 8 × 8 in row-major order, 1024 points of each cloud per tile.
-/
import proofs.«122788_j81475529605150_1_alg».proof.Proof.Gen.Kernel.Frame
import proofs.«122788_j81475529605150_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Small facts about one store through a rectangle of a whole buffer -/

/-- Reading a whole buffer after ONE store through a rectangle: the payload inside the rectangle, the old contents
    outside it. -/
theorem read_writes_single_overlay {sg : RefSig} {κ : Kind} {sp : Space} {S : Shape} {e : EltTy} {Val : EltTy → Type}
    (mr : Memref sg κ sp S e) (h : mr.IsWhole) (s : S.Idx → Val e) (r : Rect S) (w : r.shape.Idx → Val e) :
    mr.view.read Val (mr.view.writes Val (h.unread s) [(⟨r, w⟩ : View.Piece Val S e)]) = r.overlay s w := by
  funext y
  by_cases hy : y ∈ r.set
  · obtain ⟨x, rfl⟩ := r.exists_idx_of_mem hy
    exact (View.read_writes_cons_emb mr.view (h.unread s) r w [] x).trans (Rect.overlay_emb r s w x).symm
  · rw [View.read_writes_apply_of_forall_not_mem _ _ y _ (fun p hp => by
      rw [List.mem_singleton] at hp; subst hp; exact hy), h.read_unread, Rect.overlay_of_not_mem _ _ _ hy]

theorem hz2 : (![0, 0] : Fin 2 → ℕ) = fun _ => 0 := by funext a; fin_cases a <;> rfl
theorem hz3 : (![0, 0, 0] : Fin 3 → ℕ) = fun _ => 0 := by funext a; fin_cases a <;> rfl

/-- Reading a whole buffer after ONE store through the whole-shape rectangle: the payload. -/
theorem read_writes_single_whole {sg : RefSig} {κ : Kind} {sp : Space} {S : Shape} {e : EltTy} {Val : EltTy → Type}
    (v : View sg κ sp S e) (f : v.ty.Contents Val) {off : Fin S.rank → ℕ} (hz : off = fun _ => 0)
    (inb : ∀ a, off a + S.size a ≤ S.size a) (w : S.Idx → Val e) :
    v.read Val (v.writes Val f [(⟨Rect.unit off S.size inb, w⟩ : View.Piece Val S e)]) = w := by
  subst hz
  funext y
  have e := View.read_writes_cons_emb v f (Rect.whole S) w [] y
  rw [Rect.emb_whole_apply] at e
  exact e

/-! ## The body's conditions and what it leaves in the two carried scratch buffers -/

/-- The first conditional of the body: the third grid coordinate (the tile of the second cloud) is zero. -/
abbrev condA (i : grid0.Coords) : Prop := (Scalar.cmpi .ne (Scalar.extui (Scalar.cmpi .eq (BitVec.ofNat 32 (i 2).val) 0#32)) 0#32) = 1#1
/-- The second conditional: that coordinate is not zero. -/
abbrev condB (i : grid0.Coords) : Prop := (Scalar.cmpi .ne (Scalar.extui (Scalar.cmpi .ne (BitVec.ofNat 32 (i 2).val) 0#32)) 0#32) = 1#1

/-- The running row minima after a point: the tile's row minima at the first tile of a row sweep, else the
    minimum of those with what the scratch held. -/
def new0 (i : grid0.Coords) (x1 x2 : Vec F S1x1024x3 .f32) (s0 : Vec F S1024x1 .f32) : Vec F S1024x1 .f32 :=
  if condA i then k0_pay8 x1 x2 else k0_pay9 x1 x2 s0

/-- The running column minima after a point: inside the tile's 1024 columns the tile's column minima (first row tile of a
    batch) or their minimum with what the scratch held there (later row tiles); outside those columns what the scratch held. -/
def new1 (i : grid0.Coords) (x1 x2 : Vec F S1x1024x3 .f32) (s1 : Vec F S1x8192 .f32) : Vec F S1x8192 .f32 :=
  if h3 : k0_cond3 i = 1#1 then
    (Rect.unit (s := S1x8192) (k0_off1 i) S1x1024.size (k0_off1_inb i h3)).overlay s1 (k0_pay1 (k0_pay7 x1 x2))
  else if h4 : k0_cond4 i = 1#1 then
    (Rect.unit (s := S1x8192) (k0_off2 i) S1x1024.size (k0_off2_inb i h4)).overlay s1
      (k0_pay2 (k0_pay7 x1 x2) (View.ld s1 (Rect.unit (s := S1x8192) (k0_off2 i) S1x1024.size (k0_off2_inb i h4))))
  else s1

theorem new0_first (i : grid0.Coords) (x1 x2 : Vec F S1x1024x3 .f32) (s0 : Vec F S1024x1 .f32) (hA : condA i) :
    new0 i x1 x2 s0 = k0_pay8 x1 x2 := if_pos hA
theorem new0_later (i : grid0.Coords) (x1 x2 : Vec F S1x1024x3 .f32) (s0 : Vec F S1024x1 .f32) (hA : ¬condA i) :
    new0 i x1 x2 s0 = k0_pay9 x1 x2 s0 := if_neg hA
theorem new1_first (i : grid0.Coords) (x1 x2 : Vec F S1x1024x3 .f32) (s1 : Vec F S1x8192 .f32) (h3 : k0_cond3 i = 1#1) :
    new1 i x1 x2 s1 = (Rect.unit (s := S1x8192) (k0_off1 i) S1x1024.size (k0_off1_inb i h3)).overlay s1 (k0_pay1 (k0_pay7 x1 x2)) := dif_pos h3
theorem new1_later (i : grid0.Coords) (x1 x2 : Vec F S1x1024x3 .f32) (s1 : Vec F S1x8192 .f32) (h3 : ¬k0_cond3 i = 1#1) (h4 : k0_cond4 i = 1#1) :
    new1 i x1 x2 s1 = (Rect.unit (s := S1x8192) (k0_off2 i) S1x1024.size (k0_off2_inb i h4)).overlay s1
      (k0_pay2 (k0_pay7 x1 x2) (View.ld s1 (Rect.unit (s := S1x8192) (k0_off2 i) S1x1024.size (k0_off2_inb i h4)))) :=
  (dif_neg h3).trans (dif_pos h4)

/-! ## The conditions over the grid, decided -/

/-- The grid's 256 points are (batch, row tile, column tile) in row-major order: the column tile is the point's
    number mod 8, the row tile its number div 8 mod 8. The facts below are decided over the grid. -/
theorem gAB : ∀ t : Fin cfg0.N, condB (grid0.coords t) ↔ ¬condA (grid0.coords t) :=
  (by decide +kernel : ∀ t : Fin grid0.N, condB (grid0.coords t) ↔ ¬condA (grid0.coords t))
theorem g34 : ∀ t : Fin cfg0.N, k0_cond4 (grid0.coords t) = 1#1 ↔ ¬k0_cond3 (grid0.coords t) = 1#1 :=
  (by decide +kernel : ∀ t : Fin grid0.N, k0_cond4 (grid0.coords t) = 1#1 ↔ ¬k0_cond3 (grid0.coords t) = 1#1)
theorem gA5 : ∀ t : Fin cfg0.N, condA (grid0.coords t) → ¬k0_cond5 (grid0.coords t) = 1#1 :=
  (by decide +kernel : ∀ t : Fin grid0.N, condA (grid0.coords t) → ¬k0_cond5 (grid0.coords t) = 1#1)
theorem g65 : ∀ t : Fin cfg0.N, k0_cond6 (grid0.coords t) = 1#1 → k0_cond5 (grid0.coords t) = 1#1 ∧ ¬k0_cond3 (grid0.coords t) = 1#1 :=
  (by decide +kernel : ∀ t : Fin grid0.N, k0_cond6 (grid0.coords t) = 1#1 → k0_cond5 (grid0.coords t) = 1#1 ∧ ¬k0_cond3 (grid0.coords t) = 1#1)

/-- The first column tile of a row sweep. -/
theorem hcondA : ∀ t : Fin cfg0.N, condA (grid0.coords t) ↔ t.val % 8 = 0 :=
  (by decide +kernel : ∀ t : Fin grid0.N, condA (grid0.coords t) ↔ t.val % 8 = 0)
/-- The first row tile of a batch. -/
theorem hcond3 : ∀ t : Fin cfg0.N, k0_cond3 (grid0.coords t) = 1#1 ↔ t.val / 8 % 8 = 0 :=
  (by decide +kernel : ∀ t : Fin grid0.N, k0_cond3 (grid0.coords t) = 1#1 ↔ t.val / 8 % 8 = 0)
/-- The last column tile of a row sweep. -/
theorem hcond5 : ∀ t : Fin cfg0.N, k0_cond5 (grid0.coords t) = 1#1 ↔ t.val % 8 = 7 :=
  (by decide +kernel : ∀ t : Fin grid0.N, k0_cond5 (grid0.coords t) = 1#1 ↔ t.val % 8 = 7)
/-- The last point of a batch. -/
theorem hcond6 : ∀ t : Fin cfg0.N, k0_cond6 (grid0.coords t) = 1#1 ↔ t.val % 64 = 63 :=
  (by decide +kernel : ∀ t : Fin grid0.N, k0_cond6 (grid0.coords t) = 1#1 ↔ t.val % 64 = 63)
/-- The columns a point's tile covers start at 1024 times its column tile. -/
theorem hoff1 : ∀ t : Fin cfg0.N, k0_off1 (grid0.coords t) = ![0, t.val % 8 * 1024] :=
  (by decide +kernel : ∀ t : Fin grid0.N, k0_off1 (grid0.coords t) = ![0, t.val % 8 * 1024])
theorem hoff2 : ∀ t : Fin cfg0.N, k0_off2 (grid0.coords t) = ![0, t.val % 8 * 1024] :=
  (by decide +kernel : ∀ t : Fin grid0.N, k0_off2 (grid0.coords t) = ![0, t.val % 8 * 1024])

/-- Where the windows are idle: the inputs never; the row-minimum output except at a sweep's last column tile; the
    column-minimum output except at a batch's last point; and an idle point does not write back. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, k0_cond5 (grid0.coords t) = 1#1 → cfg0.idle 2 (grid0.coords t) = false := by decide +kernel
theorem idle2 : ∀ t : Fin cfg0.N, ¬k0_cond5 (grid0.coords t) = 1#1 → cfg0.idle 2 (grid0.coords t) = true := by decide +kernel
theorem noFlush2 : ∀ t : Fin cfg0.N, ¬k0_cond5 (grid0.coords t) = 1#1 → (cfg0.win 2).flush t = false := by decide +kernel
theorem live3 : ∀ t : Fin cfg0.N, k0_cond6 (grid0.coords t) = 1#1 → cfg0.idle 3 (grid0.coords t) = false := by decide +kernel
theorem idle3 : ∀ t : Fin cfg0.N, ¬k0_cond6 (grid0.coords t) = 1#1 → cfg0.idle 3 (grid0.coords t) = true := by decide +kernel
theorem noFlush3 : ∀ t : Fin cfg0.N, ¬k0_cond6 (grid0.coords t) = 1#1 → (cfg0.win 3).flush t = false := by decide +kernel

/-! ## The memrefs the pipeline passes, and the input blocks -/

variable (m : (ℓ : Loc nD τ sig) → Buf (Elt F) ℓ) (ρ : Dev nD → PrngReg)

abbrev ms0_0 (t : Fin cfg0.N) : Memref sig .tc .vmem S1x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x8192 .f32 := win0_3.stage (cfg0.slots t 3)
abbrev hs0_3 (t : Fin cfg0.N) : (ms0_3 t).IsWhole := hstage0_3 ((cfg0.slots t 3).cast nbuf0_3)
/-- The two scratch buffers: the running row minima and the running column minima. -/
abbrev scM0 : Memref sig .tc .vmem S1024x1 .f32 := Memref.whole cc0_scratch0
abbrev scM1 : Memref sig .tc .vmem S1x8192 .f32 := Memref.whole cc0_scratch1

/-- The block of the first cloud a point reads (1024 points of its batch's row tile), and of the second (of its column tile). -/
abbrev xb1 (c : Dev nD) (t : Fin cfg0.N) : Vec F S1x1024x3 .f32 := iblk m c 0 t
abbrev xb2 (c : Dev nD) (t : Fin cfg0.N) : Vec F S1x1024x3 .f32 := iblk m c 1 t

/-- Contents nothing depends on: what a scratch buffer is taken to hold before the first point. -/
def junk0 : Vec F S1024x1 .f32 := fun _ => Classical.choice (Elt.nonempty F _)
def junk1 : Vec F S1x8192 .f32 := fun _ => Classical.choice (Elt.nonempty F _)

/-- The running row minima after point `n`. -/
def sc0At (c : Dev nD) : (n : ℕ) → n < cfg0.N → Vec F S1024x1 .f32
  | 0, hn => new0 (grid0.coords ⟨0, hn⟩) (xb1 m c ⟨0, hn⟩) (xb2 m c ⟨0, hn⟩) junk0
  | n + 1, hn => new0 (grid0.coords ⟨n + 1, hn⟩) (xb1 m c ⟨n + 1, hn⟩) (xb2 m c ⟨n + 1, hn⟩) (sc0At c n (Nat.lt_of_succ_lt hn))

/-- The running column minima after point `n` (over arbitrary contents in the columns no point has reached yet). -/
def sc1At (c : Dev nD) : (n : ℕ) → n < cfg0.N → Vec F S1x8192 .f32
  | 0, hn => new1 (grid0.coords ⟨0, hn⟩) (xb1 m c ⟨0, hn⟩) (xb2 m c ⟨0, hn⟩) junk1
  | n + 1, hn => new1 (grid0.coords ⟨n + 1, hn⟩) (xb1 m c ⟨n + 1, hn⟩) (xb2 m c ⟨n + 1, hn⟩) (sc1At c n (Nat.lt_of_succ_lt hn))

theorem sc0At_succ (c : Dev nD) (n : ℕ) (hn : n + 1 < cfg0.N) :
    sc0At m c (n + 1) hn = new0 (grid0.coords ⟨n + 1, hn⟩) (xb1 m c ⟨n + 1, hn⟩) (xb2 m c ⟨n + 1, hn⟩) (sc0At m c n (Nat.lt_of_succ_lt hn)) := rfl
theorem sc1At_succ (c : Dev nD) (n : ℕ) (hn : n + 1 < cfg0.N) :
    sc1At m c (n + 1) hn = new1 (grid0.coords ⟨n + 1, hn⟩) (xb1 m c ⟨n + 1, hn⟩) (xb2 m c ⟨n + 1, hn⟩) (sc1At m c n (Nat.lt_of_succ_lt hn)) := rfl
theorem sc0At_zero (c : Dev nD) (hn : 0 < cfg0.N) :
    sc0At m c 0 hn = new0 (grid0.coords ⟨0, hn⟩) (xb1 m c ⟨0, hn⟩) (xb2 m c ⟨0, hn⟩) junk0 := rfl
theorem sc1At_zero (c : Dev nD) (hn : 0 < cfg0.N) :
    sc1At m c 0 hn = new1 (grid0.coords ⟨0, hn⟩) (xb1 m c ⟨0, hn⟩) (xb2 m c ⟨0, hn⟩) junk1 := rfl

/-- Column `y` of the column-minimum scratch has been reached by some point up to `n`: its tile (the column div 1024)
    is at most `n` (the first eight points reach the eight tiles in order; every later point finds all reached). -/
def Cov (n : ℕ) (y : S1x8192.Idx) : Prop := (y 1).val / 1024 ≤ n

/-! ## The invariant carried between points, and the proof data -/

/-- The region's invariant with the two scratch buffers as memrefs owned at some contents. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Before point `n`: at the first point the launch's invariant (both scratch buffers at anything); afterwards the
    row-minimum scratch at the running row minima after the point before, the column-minimum scratch at contents that
    agree with the running column minima on every column reached so far, and the generator register at some state. -/
def PhiS (c : Dev nD) : (n : ℕ) → n ≤ cfg0.N → sProp 𝕄
  | 0, _ => Pipeline.ΦA spec0 c
  | n + 1, hn => iprop(iprop(owns (c : Thread nD τ) scM0 fullShare (sc0At m c n hn)
      ∗ (∃ X : Vec F S1x8192 .f32, ⌜∀ y, Cov n y → X y = sc1At m c n hn y⌝ ∗ owns (c : Thread nD τ) scM1 fullShare X)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0 fullShare (sc0At m c n hn)
      ∗ (∃ X : Vec F S1x8192 .f32, ⌜∀ y, Cov n y → X y = sc1At m c n hn y⌝ ∗ owns (c : Thread nD τ) scM1 fullShare X)) ∗ (∃ r, prngReg c r)) := rfl

theorem PhiS_pos (c : Dev nD) (n : ℕ) (h : n ≤ cfg0.N) (hz : n ≠ 0) :
    PhiS m c n h = iprop(iprop(owns (c : Thread nD τ) scM0 fullShare (sc0At m c (n - 1) (by omega))
      ∗ (∃ X : Vec F S1x8192 .f32, ⌜∀ y, Cov (n - 1) y → X y = sc1At m c (n - 1) (by omega) y⌝ ∗ owns (c : Thread nD τ) scM1 fullShare X)) ∗ (∃ r, prngReg c r)) := by
  cases n with
  | zero => exact absurd rfl hz
  | succ n => rfl

/-- The proof data of the one pipeline on core `c`: the arrays as the region finds them; after the body at point `t` each
    input's buffer at its block, the row-minimum output's at the running row minima after `t` and the column-minimum
    output's at the running column minima after `t` (each consulted only where the point writes the buffer); the invariant
    above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay3 (sc0At m c t.val t.isLt)
    | ⟨3, _⟩ => k0_pay4 (sc1At m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay3 (sc0At m c t.val t.isLt) := by dsimp only [dats]
theorem after0_3 (c : Dev nD) (t : Fin cfg0.N) : (dats m 0 c).after 3 t = k0_pay4 (sc1At m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

end Cert.Kernel.Body

end
-- ==== Proof.BodyTripleBits.lean ====
/-
  The kernel's body run on any whole memrefs, at any float instance: one theorem, proved control case by control case
  (the first column tile or a later one; the first row tile or a later one; whether the point writes the row-minimum
  output; whether it writes the column-minimum output).
-/
import proofs.«122788_j81475529605150_1_alg».proof.Proof.BodyDefsBits
import proofs.«122788_j81475529605150_1_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body on any whole memrefs -/

set_option hygiene false in
/-- One control case of the body: the branches decided by the case's hypotheses, the run, and each buffer handed to the
    continuation at the contents stated (an untouched buffer as it was; a stored one read back through its one store). -/
local macro "body_case" : tactic => `(tactic| (
    (first | rw [new0_first i x1 x2 s0 hA] | rw [new0_later i x1 x2 s0 hA])
    (first | rw [new1_first i x1 x2 s1 h3] | rw [new1_later i x1 x2 s1 h3 (h34.mpr h3)])
    (first | rw [if_pos h5] | rw [if_neg h5])
    (first | rw [if_pos h6] | rw [if_neg h6])
    simp only [cc0__chamfer_kernel_eq_skeleton]; unfold cc0__chamfer_kernel_skel
    simp only [k0_part1_eq_skeleton]; unfold k0_part1_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg3.eq_unread hf3; obtain rfl := harg4.eq_unread hf4; obtain rfl := harg5.eq_unread hf5
    obtain rfl := harg6.eq_unread hf6; obtain rfl := harg7.eq_unread hf7; obtain rfl := harg8.eq_unread hf8
    sl_exec (disch := first | exact hA | exact h3 | exact h5 | exact h6 | exact hAB.mpr hA | exact fun hb => (hAB.mp hb) hA | exact h34.mpr h3 | exact fun h => (h34.mp h) h3)
    sl_step
    iapply Hk
    isplitl [H3]
    · iexists _; isplitr; swap; · iexact H3
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H4]
    · iexists _; isplitr; swap; · iexact H4
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H5]
    · iexists _; isplitr; swap; · iexact H5
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H6]
    · iexists _; isplitr; swap; · iexact H6
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    isplitl [H7]
    · iexists _; isplitr; swap; · iexact H7
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl
    · iexists _; isplitr; swap; · iexact H8
      ipureintro
      (try sl_unfold_words); (try dsimp only); simp only [read_writes_single_whole (S := S1024x1) _ _ hz2, read_writes_single_whole (S := S1x1024x1) _ _ hz3,
          read_writes_single_whole (S := S1x1x8192) _ _ hz3, read_writes_single_overlay arg8 harg8,
          View.readAt_eq_ld, Memref.IsWhole.read_unread, View.ld_unit_zero (S := S1x1024x3) hz3, View.ld_unit_zero (S := S1024x1) hz2,
          View.ld_unit_zero (S := S1x8192) hz2, View.readCov_unit_zero (S := S1024x1) _ hz2]; all_goals rfl))

set_option maxHeartbeats 1000000 in
/-- The body at a grid point whose conditions are related as they are on the grid (the two complementary pairs; the
    row-minimum output written only at the last column tile, the column-minimum output only at the very last point of a
    batch): from the two input blocks, the two output buffers at anything and the two scratch buffers at their contents,
    it runs to the inputs unchanged, the scratch buffers at the updated running minima, and each output buffer at the
    corresponding scratch's new contents where the point writes it, untouched elsewhere. -/
theorem body_run (c : Dev nD) (i : grid0.Coords)
    (arg3 : Memref sig .tc .vmem S1x1024x3 .f32) (harg3 : arg3.IsWhole) (arg4 : Memref sig .tc .vmem S1x1024x3 .f32) (harg4 : arg4.IsWhole)
    (arg5 : Memref sig .tc .vmem S1x1024x1 .f32) (harg5 : arg5.IsWhole) (arg6 : Memref sig .tc .vmem S1x1x8192 .f32) (harg6 : arg6.IsWhole)
    (arg7 : Memref sig .tc .vmem S1024x1 .f32) (harg7 : arg7.IsWhole) (arg8 : Memref sig .tc .vmem S1x8192 .f32) (harg8 : arg8.IsWhole)
    (hAB : condB i ↔ ¬condA i) (h34 : k0_cond4 i = 1#1 ↔ ¬k0_cond3 i = 1#1)
    (hA5 : condA i → ¬k0_cond5 i = 1#1) (h65 : k0_cond6 i = 1#1 → k0_cond5 i = 1#1 ∧ ¬k0_cond3 i = 1#1)
    (x1 : Vec F S1x1024x3 .f32) (x2 : Vec F S1x1024x3 .f32) (o2 : Vec F S1x1024x1 .f32) (o3 : Vec F S1x1x8192 .f32)
    (s0 : Vec F S1024x1 .f32) (s1 : Vec F S1x8192 .f32) (E : Set ℕ) (K : PUnit → sProp 𝕄) :
    iprop(owns (c : Thread nD τ) arg3 fullShare x1 ∗ owns (c : Thread nD τ) arg4 fullShare x2 ∗ owns (c : Thread nD τ) arg5 fullShare o2
        ∗ owns (c : Thread nD τ) arg6 fullShare o3 ∗ owns (c : Thread nD τ) arg7 fullShare s0 ∗ owns (c : Thread nD τ) arg8 fullShare s1
        ∗ (iprop(owns (c : Thread nD τ) arg3 fullShare x1 ∗ owns (c : Thread nD τ) arg4 fullShare x2
            ∗ owns (c : Thread nD τ) arg5 fullShare (if k0_cond5 i = 1#1 then k0_pay3 (new0 i x1 x2 s0) else o2)
            ∗ owns (c : Thread nD τ) arg6 fullShare (if k0_cond6 i = 1#1 then k0_pay4 (new1 i x1 x2 s1) else o3)
            ∗ owns (c : Thread nD τ) arg7 fullShare (new0 i x1 x2 s0) ∗ owns (c : Thread nD τ) arg8 fullShare (new1 i x1 x2 s1)) -∗ K ⟨⟩))
      ⊢ wp frame (wpE (defs₀ (F := F)) Variants.none c none) E (cc0__chamfer_kernel i arg3 harg3 arg4 harg4 arg5 harg5 arg6 harg6 arg7 harg7 arg8 harg8) K := by
  by_cases hA : condA i
  · have h5 : ¬k0_cond5 i = 1#1 := hA5 hA
    have h6 : ¬k0_cond6 i = 1#1 := fun h => h5 (h65 h).1
    by_cases h3 : k0_cond3 i = 1#1
    · body_case
    · body_case
  · by_cases h5 : k0_cond5 i = 1#1
    · by_cases h6 : k0_cond6 i = 1#1
      · have h3 : ¬k0_cond3 i = 1#1 := (h65 h6).2
        body_case
      · by_cases h3 : k0_cond3 i = 1#1
        · body_case
        · body_case
    · have h6 : ¬k0_cond6 i = 1#1 := fun h => h5 (h65 h).1
      by_cases h3 : k0_cond3 i = 1#1
      · body_case
      · body_case

end Cert.Kernel.Body

end
-- ==== Proof.BodyRunBits.lean ====
/-
  The region's frame, at any float instance: one step of the two running minima (what the invariant needs from a point to
  the next), the body obligation at every point, the launch, and the frame.
-/
import proofs.«122788_j81475529605150_1_alg».proof.Proof.BodyDefsBits
import proofs.«122788_j81475529605150_1_alg».proof.Proof.BodyTripleBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## One step of the two running minima -/

/-- The running row minima after point `t` are the body's update of what the scratch held, whatever it held at the first
    point (which stores the tile's row minima outright). -/
theorem sc0_step (c : Dev nD) (t : Fin cfg0.N) (s : Vec F S1024x1 .f32)
    (hs : ∀ hz : t.val ≠ 0, s = sc0At m c (t.val - 1) (by omega)) :
    new0 (grid0.coords t) (xb1 m c t) (xb2 m c t) s = sc0At m c t.val t.isLt := by
  obtain ⟨n, hn⟩ := t
  cases n with
  | zero =>
    have hA : condA (grid0.coords ⟨0, hn⟩) := (hcondA ⟨0, hn⟩).mpr (Nat.zero_mod _)
    rw [sc0At_zero, new0_first _ _ _ _ hA, new0_first _ _ _ _ hA]
  | succ n => rw [hs (Nat.succ_ne_zero n)]; rfl

/-- A column is inside the tile point `t` stores into exactly when its tile is the point's column tile. -/
theorem mem_tile_iff (t : Fin cfg0.N) (off : Fin 2 → ℕ) (hoff : off = ![0, t.val % 8 * 1024])
    (inb : ∀ a, off a + S1x1024.size a ≤ S1x8192.size a) (y : S1x8192.Idx) :
    y ∈ (Rect.unit (s := S1x8192) off S1x1024.size inb).set ↔ (y 1).val / 1024 = t.val % 8 := by
  subst hoff
  rw [Rect.mem_set_unit]
  constructor
  · intro h
    have h1 := h 1
    simp only [Matrix.cons_val_one, Matrix.cons_val_zero, Matrix.head_cons] at h1
    have : (S1x1024.size 1) = 1024 := rfl
    omega
  · intro h a
    fin_cases a
    · have := (y 0).isLt
      show (0 : ℕ) ≤ (y 0).val ∧ (y 0).val < 0 + 1
      have h0 : S1x8192.size 0 = 1 := rfl
      omega
    · show t.val % 8 * 1024 ≤ (y 1).val ∧ (y 1).val < t.val % 8 * 1024 + 1024
      omega

/-- Inside a rectangle an overlay does not depend on what it overlays. -/
theorem overlay_congr_mem {S : Shape} {α : Type} (r : Rect S) (X X' : S.Idx → α) (w : r.shape.Idx → α) (y : S.Idx)
    (hy : y ∈ r.set) : r.overlay X w y = r.overlay X' w y := by
  obtain ⟨x, rfl⟩ := r.exists_idx_of_mem hy
  exact (Rect.overlay_emb r X w x).trans (Rect.overlay_emb r X' w x).symm

theorem sc1At_pos (c : Dev nD) (t : Fin cfg0.N) (hz : t.val ≠ 0) :
    sc1At m c t.val t.isLt = new1 (grid0.coords t) (xb1 m c t) (xb2 m c t) (sc1At m c (t.val - 1) (by omega)) := by
  obtain ⟨n, hn⟩ := t
  cases n with
  | zero => exact absurd rfl hz
  | succ n => rfl

theorem sc1At_first (c : Dev nD) (t : Fin cfg0.N) (hz : t.val = 0) :
    sc1At m c t.val t.isLt = new1 (grid0.coords t) (xb1 m c t) (xb2 m c t) junk1 := by
  obtain ⟨n, hn⟩ := t
  cases n with
  | zero => rfl
  | succ n => exact absurd hz (Nat.succ_ne_zero n)

/-- The running column minima after point `t`, on every column reached so far, are the body's update of contents that
    agreed with them on every column reached before: inside the point's tile the update does not look at the old
    contents at the first row tile, and at a later row tile every column has been reached; outside the tile the old
    contents stay. -/
theorem sc1_step (c : Dev nD) (t : Fin cfg0.N) (X : Vec F S1x8192 .f32)
    (hX : ∀ hz : t.val ≠ 0, ∀ y, Cov (t.val - 1) y → X y = sc1At m c (t.val - 1) (by omega) y) :
    ∀ y, Cov t.val y → new1 (grid0.coords t) (xb1 m c t) (xb2 m c t) X y = sc1At m c t.val t.isLt y := by
  have hN : t.val < 256 := lt_of_lt_of_eq t.isLt (show cfg0.N = 256 from N_0)
  have h8 : S1x8192.size 1 = 8192 := rfl
  intro y hy
  unfold Cov at hy
  have hy1 : (y 1).val < S1x8192.size 1 := (y 1).isLt
  by_cases h3 : k0_cond3 (grid0.coords t) = 1#1
  · have h3' := (hcond3 t).mp h3
    by_cases hz : t.val = 0
    · rw [sc1At_first m c t hz, new1_first _ _ _ _ h3, new1_first _ _ _ _ h3]
      exact overlay_congr_mem _ _ _ _ y ((mem_tile_iff t _ (hoff1 t) _ y).mpr (by omega))
    · rw [sc1At_pos m c t hz, new1_first _ _ _ _ h3, new1_first _ _ _ _ h3]
      by_cases hmem : y ∈ (Rect.unit (s := S1x8192) (k0_off1 (grid0.coords t)) S1x1024.size (k0_off1_inb _ h3)).set
      · exact overlay_congr_mem _ _ _ _ y hmem
      · rw [Rect.overlay_of_not_mem _ _ _ hmem, Rect.overlay_of_not_mem _ _ _ hmem]
        have hne := mt (mem_tile_iff t _ (hoff1 t) _ y).mpr hmem
        exact hX hz y (by unfold Cov; omega)
  · have h3' := mt (hcond3 t).mpr h3
    have hz : t.val ≠ 0 := fun h => h3' (by rw [h])
    have hXe : X = sc1At m c (t.val - 1) (by omega) := funext fun y' => hX hz y' (by
      unfold Cov
      have : (y' 1).val < S1x8192.size 1 := (y' 1).isLt
      omega)
    rw [sc1At_pos m c t hz, hXe]

/-! ## The body obligation -/

/-- The invariant before point `t`, opened: the two scratch buffers at contents that, after the first point, are the
    running row minima after the point before and agree with the running column minima on every column reached. -/
theorem Phi_open (c : Dev nD) (t : Fin cfg0.N) :
    (dats m 0 c).Φ t.castSucc ⊢ (iprop(∃ (s0 : Vec F S1024x1 .f32) (X : Vec F S1x8192 .f32),
      ⌜(∀ hz : t.val ≠ 0, s0 = sc0At m c (t.val - 1) (by omega))
        ∧ (∀ hz : t.val ≠ 0, ∀ y, Cov (t.val - 1) y → X y = sc1At m c (t.val - 1) (by omega) y)⌝
      ∗ owns (c : Thread nD τ) scM0 fullShare s0 ∗ owns (c : Thread nD τ) scM1 fullShare X ∗ (∃ r, prngReg c r)) : sProp 𝕄) := by
  rw [PhiS_castSucc]
  by_cases hz : t.val = 0
  · rw [PhiS_zero m c _ _ hz, PhiA0_eq]
    iintro ⟨⟨⟨%d0, H0⟩, ⟨%d1, H1⟩⟩, Hg⟩
    iexists d0; iexists d1
    isplitr
    · ipureintro; exact ⟨fun h => absurd hz h, fun h => absurd hz h⟩
    isplitl [H0]; · iexact H0
    isplitl [H1]; · iexact H1
    iexact Hg
  · rw [PhiS_pos m c _ _ hz]
    iintro ⟨⟨H0, ⟨%X, %hX, H1⟩⟩, Hg⟩
    iexists _; iexists X
    isplitr
    · ipureintro; exact ⟨fun _ => rfl, fun _ => hX⟩
    isplitl [H0]; · iexact H0
    isplitl [H1]; · iexact H1
    iexact Hg

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

set_option hygiene false in
/-- The common part of the three cases of which outputs a point writes: the invariant opened, the body run, the
    invariant closed at the next point's contents, the inputs handed back at their blocks. -/
local macro "sound_open" : tactic => `(tactic| (
    iintro ⟨HΦ, Ho, ⟨%d0, H0⟩, ⟨%d1, H1⟩, ⟨%d2, H2⟩, ⟨%d3, H3⟩⟩
    ihave HΦ' := (Phi_open m c t) $$ HΦ
    icases HΦ' with ⟨%s0, %X, %hsX, HS0, HS1, Hg⟩
    rw [← sc0_step m c t s0 hsX.1]
    iapply (body_run c (grid0.coords t) (ms0_0 t) (hs0_0 t) (ms0_1 t) (hs0_1 t) (ms0_2 t) (hs0_2 t) (ms0_3 t) (hs0_3 t)
      scM0 (Memref.isWhole_whole _) scM1 (Memref.isWhole_whole _) (gAB t) (g34 t) (gA5 t) (g65 t)
      (xb1 m c t) (xb2 m c t) _ _ s0 X Set.univ _)
    isplitl [H0]; · iexact H0
    isplitl [H1]; · iexact H1
    isplitl [H2]; · iexact H2
    isplitl [H3]; · iexact H3
    isplitl [HS0]; · iexact HS0
    isplitl [HS1]; · iexact HS1))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [live0 t], after0_0]
  rw [show (dats m 0 c).leavesExact 1 t = owns (c : Thread nD τ) (ms0_1 t) fullShare ((dats m 0 c).after 1 t) from by
    unfold Dat.leavesExact; rw [live1 t], after0_1]
  by_cases h5 : k0_cond5 (grid0.coords t) = 1#1
  · rw [show (dats m 0 c).leavesExact 2 t = owns (c : Thread nD τ) (ms0_2 t) fullShare ((dats m 0 c).after 2 t) from by
      unfold Dat.leavesExact; rw [live2 t h5], after0_2]
    by_cases h6 : k0_cond6 (grid0.coords t) = 1#1
    · rw [show (dats m 0 c).leavesExact 3 t = owns (c : Thread nD τ) (ms0_3 t) fullShare ((dats m 0 c).after 3 t) from by
        unfold Dat.leavesExact; rw [live3 t h6], after0_3]
      sound_open
      have hfull : new1 (grid0.coords t) (xb1 m c t) (xb2 m c t) X = sc1At m c t.val t.isLt :=
        funext fun y => sc1_step m c t X hsX.2 y (by
          unfold Cov; have h63 := (hcond6 t).mp h6; have hy := (y 1).isLt
          have h8 : S1x8192.size 1 = 8192 := rfl
          omega)
      rw [if_pos h5, if_pos h6, hfull]
      iintro ⟨H0, H1, H2, H3, HS0, HS1⟩
      isplitl [HS0 HS1 Hg]
      · isplitl [HS0 HS1]
        · isplitl [HS0]; · iexact HS0
          iexists _; isplitr
          · ipureintro; exact fun y _ => rfl
          iexact HS1
        iexact Hg
      isplitl [Ho]; · iexact Ho
      isplitl [H0]; · iexact H0
      isplitl [H1]; · iexact H1
      isplitl [H2]; · iexact H2
      iexact H3
    · rw [Dat.leavesExact_idle (dats m 0 c) 3 t (idle3 t h6) (noFlush3 t h6)]
      sound_open
      rw [if_pos h5, if_neg h6]
      iintro ⟨H0, H1, H2, H3, HS0, HS1⟩
      isplitl [HS0 HS1 Hg]
      · isplitl [HS0 HS1]
        · isplitl [HS0]; · iexact HS0
          iexists _; isplitr
          · ipureintro; exact sc1_step m c t X hsX.2
          iexact HS1
        iexact Hg
      isplitl [Ho]; · iexact Ho
      isplitl [H0]; · iexact H0
      isplitl [H1]; · iexact H1
      isplitl [H2]; · iexact H2
      iexists _; iexact H3
  · have h6 : ¬k0_cond6 (grid0.coords t) = 1#1 := fun h => h5 (g65 t h).1
    rw [Dat.leavesExact_idle (dats m 0 c) 2 t (idle2 t h5) (noFlush2 t h5)]
    rw [Dat.leavesExact_idle (dats m 0 c) 3 t (idle3 t h6) (noFlush3 t h6)]
    sound_open
    rw [if_neg h5, if_neg h6]
    iintro ⟨H0, H1, H2, H3, HS0, HS1⟩
    isplitl [HS0 HS1 Hg]
    · isplitl [HS0 HS1]
      · isplitl [HS0]; · iexact HS0
        iexists _; isplitr
        · ipureintro; exact sc1_step m c t X hsX.2
        iexact HS1
      iexact Hg
    isplitl [Ho]; · iexact Ho
    isplitl [H0]; · iexact H0
    isplitl [H1]; · iexact H1
    isplitl [H2]; · iexists _; iexact H2
    iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the launch's back: the scratch buffers' named contents are forgotten. -/
theorem hout (c : Dev nD) : (dats m 0 c).Φ (Fin.last cfg0.N) ⊢ Pipeline.ΦA spec0 c := by
  have hN : (Fin.last cfg0.N).val ≠ 0 := by rw [Fin.val_last]; have : cfg0.N = 256 := N_0; omega
  rw [show (dats m 0 c).Φ (Fin.last cfg0.N) = PhiS m c (Fin.last cfg0.N).val (Nat.le_of_lt_succ (Fin.last cfg0.N).isLt) from rfl,
    PhiS_pos m c _ _ hN, PhiA0_eq]
  iintro ⟨⟨HS0, ⟨%X, %hX, HS1⟩⟩, Hg⟩
  isplitl [HS0 HS1]
  · isplitl [HS0]
    · iexists _; iexact HS0
    iexists _; iexact HS1
  iexact Hg

/-! ## The run and the frame -/

set_option backward.isDefEq.respectTransparency.types false in
/-- At the compiled mesh, for any values, from any memory with zero counters: every weakly fair execution of the program
    terminates, and every final state has every array of the pipeline at what the library computes from the proof data
    and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Spec.lean ====
/-
  The mathematics both programs compute, stated once over the extended reals.

  Two clouds of points in 3-space, four batches of 8192 points each: `x` and `y`.  For a pair of points
  the squared distance is written the polarised way, |p|² + |q|² − 2·p·q, and clipped below at zero.
  `dist1` of a point of `x` is the least such value over all points of `y` in its batch, `dist2` of a
  point of `y` the least over all points of `x`.  The result is the mean of `dist1` plus the mean of
  `dist2`, each mean a sum over the 4·8192 points divided by 32768.
-/
import Idealize.ShloMosaic.PureOps.Ideal
import Idealize.ShloMosaic.Lib.ValueIdx

noncomputable section

namespace Cert.Chamfer

open Idealize.ShloMosaic Idealize.ShloMosaic.ValueIdx

abbrev SCloud : Shape := ⟨3, ![4, 8192, 3]⟩
abbrev SDist : Shape := ⟨2, ![4, 8192]⟩
abbrev SScalar : Shape := ⟨0, ![]⟩

/-- The literal 2 of the cross term, kept as its word (the same word stands on both sides). -/
abbrev two : EReal := Ideal.ofBits .f32 0x40000000#32
/-- The literal 0 the squared distance is clipped at, kept as its word. -/
abbrev zero : EReal := Ideal.ofBits .f32 0x00000000#32

/-- |p|² of point `n` of batch `b`. -/
def sq (x : SCloud.Idx → EReal) (b : Fin 4) (n : Fin 8192) : EReal :=
  ∑ d : Fin 3, x (ix3 b n d) * x (ix3 b n d)

/-- p·q for point `n` of `x` and point `k` of `y` in batch `b`. -/
def cross (x y : SCloud.Idx → EReal) (b : Fin 4) (n k : Fin 8192) : EReal :=
  ∑ d : Fin 3, x (ix3 b n d) * y (ix3 b k d)

/-- The clipped squared distance between point `n` of `x` and point `k` of `y` in batch `b`. -/
def d2 (x y : SCloud.Idx → EReal) (b : Fin 4) (n k : Fin 8192) : EReal :=
  max (sq x b n + sq y b k - two * cross x y b n k) zero

/-- The least clipped squared distance from point `n` of `x` to the points of `y`. -/
def dist1 (x y : SCloud.Idx → EReal) (b : Fin 4) (n : Fin 8192) : EReal :=
  Finset.univ.inf fun k : Fin 8192 => d2 x y b n k

/-- The least clipped squared distance from point `k` of `y` to the points of `x`. -/
def dist2 (x y : SCloud.Idx → EReal) (b : Fin 4) (k : Fin 8192) : EReal :=
  Finset.univ.inf fun n : Fin 8192 => d2 x y b n k

/-- `dist1` as an array over (batch, point). -/
def D1 (x y : SCloud.Idx → EReal) : SDist.Idx → EReal := fun i => dist1 x y (i 0) (i 1)
/-- `dist2` as an array over (batch, point). -/
def D2 (x y : SCloud.Idx → EReal) : SDist.Idx → EReal := fun i => dist2 x y (i 0) (i 1)

/-- The closing arithmetic both programs share: the sum of each array over all its entries from zero,
    each divided by 32768, the two quotients added. -/
def meanSum (hr : SDist.ReducesTo [0, 1] SScalar) (hs : 0 < SScalar.numel) (a b : FVec Ideal SDist .f32) : FVec Ideal SScalar .f32 :=
  addf
    (Host.divf (Host.reduceAdd a (constant (F := Ideal) SScalar .f32 0x00000000#32) hr hs) (constant (F := Ideal) SScalar .f32 0x47000000#32))
    (Host.divf (Host.reduceAdd b (constant (F := Ideal) SScalar .f32 0x00000000#32) hr hs) (constant (F := Ideal) SScalar .f32 0x47000000#32))

end Cert.Chamfer

end
-- ==== Proof.PayValue.lean ====
/-
  The kernel's pure payloads read at an index, at the ideal values (floats are extended reals; the bf16
  truncation of the matmul's operands is the identity there).

  Per grid point the kernel holds two blocks of 1024 points in 3-space, x1 and x2.  Its tile of clipped
  squared distances is, at (r, c), max (|x1_r|² + |x2_c|² − 2·(x1_r·x2_c)) 0: each |·|² is a sum over the
  three coordinates, the cross term is the matrix product of x1 with the transpose of x2 read at (r, c), and
  the literals 2 and 0 are kept as their words.  The row minima are the infimum over c of that tile, the
  column minima the infimum over r; the remaining payloads are shape casts and a minimum against a carried
  accumulator.
-/
import proofs.«122788_j81475529605150_1_alg».proof.Proof.Gen.KernelIdeal.Skeleton
import proofs.«122788_j81475529605150_1_alg».proof.Proof.Spec
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

noncomputable section

namespace Cert.KernelIdeal.PayValue

open Cert.KernelIdeal Cert.KernelIdeal.Gen Idealize.ShloMosaic Idealize.ShloMosaic.ValueIdx

/-! ## Layout operations on a column, read at an index -/

section Layout
variable {α : Type}

/-- A vector [a] cast to the column [a, 1] reads, at (i, u), the operand at i: both have row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## One-axis reductions of a matrix: the index over a result index -/

/-- Reducing a matrix along its columns (axis 1): over row r, the source index with column k is (r, k). -/
theorem lift_axis1 {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- Reducing a matrix along its rows (axis 0): over column c, the source index with row k is (k, c). -/
theorem lift_axis0 {a b : ℕ} (h : (⟨2, ![a, b]⟩ : Shape).Reduces [0] ⟨1, ![b]⟩) (c : Fin b) (k : Fin a) :
    h.lift (ix1 c) k = ix2 k c :=
  funext fun d => Fin.ext (by match d with | ⟨0, _⟩ => rfl | ⟨1, _⟩ => rfl)

/-- The word 0x7F800000 is +∞, the top of the extended reals. -/
theorem ofBits_inf_f32 : Ideal.ofBits .f32 0x7F800000#32 = (⊤ : EReal) := by simp [Ideal.ofBits, Ideal.ieee]

/-- A minimum reduction over one axis, at the ideal values: the fold of min from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The clipped squared distances -/

/-- The product's left operand is read on its row axis at the result's row; -/
theorem lhs_dot_0 (i : S1024x1024.Idx) (q : dot_S1024x3_S3x1024_S1024x1024_1_0_0_1_n_n.contr.Idx) : (dot_S1024x3_S3x1024_S1024x1024_1_0_0_1_n_n.lhsIdx i q 0).val = (i 0).val := by
  unfold DotDims.lhsIdx
  rw [dif_neg (show ¬(0 : Fin S1024x3.rank) ∈ dot_S1024x3_S3x1024_S1024x1024_1_0_0_1_n_n.lhsBatch by decide), dif_pos (show (0 : Fin S1024x3.rank) ∈ dot_S1024x3_S3x1024_S1024x1024_1_0_0_1_n_n.lhsNonContracting by decide)]
  rfl
/-- on its coordinate axis at the contraction index. -/
theorem lhs_dot_1 (i : S1024x1024.Idx) (q : dot_S1024x3_S3x1024_S1024x1024_1_0_0_1_n_n.contr.Idx) : (dot_S1024x3_S3x1024_S1024x1024_1_0_0_1_n_n.lhsIdx i q 1).val = (q ⟨0, by decide⟩).val :=
  dot_S1024x3_S3x1024_S1024x1024_1_0_0_1_n_n.lhsIdx_val_of_single rfl i q
/-- The right operand is read on its coordinate axis at the contraction index; -/
theorem rhs_dot_0 (i : S1024x1024.Idx) (q : dot_S1024x3_S3x1024_S1024x1024_1_0_0_1_n_n.contr.Idx) : (dot_S1024x3_S3x1024_S1024x1024_1_0_0_1_n_n.rhsIdx i q 0).val = (q ⟨0, by decide⟩).val :=
  dot_S1024x3_S3x1024_S1024x1024_1_0_0_1_n_n.rhsIdx_val_of_single rfl i q
/-- on its column axis at the result's column. -/
theorem rhs_dot_1 (i : S1024x1024.Idx) (q : dot_S1024x3_S3x1024_S1024x1024_1_0_0_1_n_n.contr.Idx) : (dot_S1024x3_S3x1024_S1024x1024_1_0_0_1_n_n.rhsIdx i q 1).val = (i 1).val := by
  unfold DotDims.rhsIdx
  rw [dif_neg (show ¬(1 : Fin S3x1024.rank) ∈ dot_S1024x3_S3x1024_S1024x1024_1_0_0_1_n_n.rhsBatch by decide), dif_pos (show (1 : Fin S3x1024.rank) ∈ dot_S1024x3_S3x1024_S1024x1024_1_0_0_1_n_n.rhsNonContracting by decide)]
  rfl

/-- The matrix product into a zero accumulator, at (r, c): the sum over the three coordinates of the left operand's
    row r times the right operand's column c. -/
theorem matmul_apply_rc (a : FVec Ideal S1024x3 .bf16) (b : FVec Ideal S3x1024 .bf16) (r c : Fin 1024) :
    matmul dot_S1024x3_S3x1024_S1024x1024_1_0_0_1_n_n none a b (constant (F := Ideal) S1024x1024 .f32 0x00000000#32) (ix2 r c)
      = ∑ k : Fin 3, a (ix2 r k) * b (ix2 k c) := by
  simp only [matmul]
  rw [Ideal.matmul_constant_zero_apply, ← Equiv.sum_comp (contrEquiv1 dot_S1024x3_S3x1024_S1024x1024_1_0_0_1_n_n 3 rfl rfl).symm]
  refine Finset.sum_congr rfl fun k _ => ?_
  have hk := contrEquiv1_symm_val dot_S1024x3_S3x1024_S1024x1024_1_0_0_1_n_n 3 rfl rfl k
  have el : dot_S1024x3_S3x1024_S1024x1024_1_0_0_1_n_n.lhsIdx (ix2 r c) ((contrEquiv1 dot_S1024x3_S3x1024_S1024x1024_1_0_0_1_n_n 3 rfl rfl).symm k) = ix2 r k := funext fun a => Fin.ext (by
    match a with
    | ⟨0, _⟩ => exact lhs_dot_0 _ _
    | ⟨1, _⟩ => exact (lhs_dot_1 _ _).trans hk)
  have er : dot_S1024x3_S3x1024_S1024x1024_1_0_0_1_n_n.rhsIdx (ix2 r c) ((contrEquiv1 dot_S1024x3_S3x1024_S1024x1024_1_0_0_1_n_n 3 rfl rfl).symm k) = ix2 k c := funext fun a => Fin.ext (by
    match a with
    | ⟨0, _⟩ => exact (rhs_dot_0 _ _).trans hk
    | ⟨1, _⟩ => exact rhs_dot_1 _ _)
  rw [el, er]

/-- The column of squared norms of a block of points, at row r: the sum over the three coordinates of the squares. -/
theorem sqnorm_col_apply (x : Vec Ideal S1x1024x3 .f32) (h1 : S1x1024x3.ShapeCasts S1024x3) (h2 : S1024x3.Reduces [1] S1024)
    (h3 : S1024.ShapeCasts S1024x1) (r : Fin 1024) :
    shapeCast S1024x1 (multiReduction (F := Ideal) .add [1] S1024 (mulf (shapeCast S1024x3 x h1) (shapeCast S1024x3 x h1))
        0x00000000#32 h2 (.inl rfl) rfl) h3 (ix2 r 0)
      = ∑ d : Fin 3, x (ix3 0 r d) * x (ix3 0 r d) := by
  refine (shapeCast_a_a1_apply _ _ r 0).trans ?_
  refine (Ideal.multiReduction_add_single _ _ h2 _ _ (ix1 r)).trans ?_
  refine Finset.sum_congr rfl fun (d : Fin 3) _ => ?_
  rw [lift_axis1, mulf_apply, shapeCast_1ab_ab_apply]

theorem pay5_apply (x1 x2 : Vec Ideal S1x1024x3 .f32) (r c : Fin 1024) :
    k0_pay5 (F := Ideal) x1 x2 (ix2 r c)
      = max ((∑ d : Fin 3, x1 (ix3 0 r d) * x1 (ix3 0 r d)) + (∑ d : Fin 3, x2 (ix3 0 c d) * x2 (ix3 0 c d))
              - Cert.Chamfer.two * ∑ d : Fin 3, x1 (ix3 0 r d) * x2 (ix3 0 c d)) Cert.Chamfer.zero := by
  unfold k0_pay5
  simp only [maximumf_apply, subf_apply, addf_apply, mulf_apply, broadcast_apply]
  refine congrArg₂ max (congrArg₂ (· - ·) (congrArg₂ (· + ·) ?_ ?_) (congrArg₂ (· * ·) rfl ?_)) rfl
  · exact (broadcastTo_a1_ab_apply _ _ r c).trans (sqnorm_col_apply x1 _ _ _ r)
  · exact (broadcastTo_1b_ab_apply _ _ r c).trans ((transpose_ix2_apply _ _ 0 c).trans (sqnorm_col_apply x2 _ _ _ c))
  · refine (matmul_apply_rc _ _ r c).trans (Finset.sum_congr rfl fun k _ => ?_)
    rw [truncf_apply, transpose_ix2_apply, truncf_apply, shapeCast_1ab_ab_apply, shapeCast_1ab_ab_apply]

/-! ## The small payloads: shape casts and a minimum against the carried accumulator -/

theorem pay1_apply (v : FVec Ideal S1x1024 .f32) (c : Fin 1024) : k0_pay1 (F := Ideal) v (ix2 0 c) = v (ix2 0 c) := by
  unfold k0_pay1
  rw [shapeCast_self]

theorem pay2_apply (v : FVec Ideal S1x1024 .f32) (s : Vec Ideal S1x1024 .f32) (c : Fin 1024) :
    k0_pay2 (F := Ideal) v s (ix2 0 c) = min (s (ix2 0 c)) (v (ix2 0 c)) := by
  unfold k0_pay2
  rw [shapeCast_self]
  rfl

theorem pay3_apply (s : Vec Ideal S1024x1 .f32) (r : Fin 1024) : k0_pay3 (F := Ideal) s (ix3 0 r 0) = s (ix2 r 0) := by
  unfold k0_pay3
  exact shapeCast_ab_1ab_apply s _ 0 r 0

theorem pay4_apply (s : Vec Ideal S1x8192 .f32) (c : Fin 8192) : k0_pay4 (F := Ideal) s (ix3 0 0 c) = s (ix2 0 c) := by
  unfold k0_pay4
  exact shapeCast_ab_1ab_apply s _ 0 0 c

/-! ## The row and column minima -/

theorem pay6_apply (x1 x2 : Vec Ideal S1x1024x3 .f32) (r : Fin 1024) :
    k0_pay6 (F := Ideal) x1 x2 (ix2 r 0) = Finset.univ.inf fun c : Fin 1024 => k0_pay5 (F := Ideal) x1 x2 (ix2 r c) := by
  unfold k0_pay6
  refine (shapeCast_a_a1_apply _ _ r 0).trans ?_
  refine (multiReduction_minimumf_single _ _ _ _ _ (ix1 r)).trans ?_
  show (Finset.univ : Finset (Fin 1024)).fold min (Ideal.ofBits .f32 0x7F800000#32) _ = _
  rw [ofBits_inf_f32]
  refine (Finset.fold_congr fun c _ => ?_).trans rfl
  show k0_pay5 (F := Ideal) x1 x2 (reduces_S1024x1024_S1024.lift (ix1 r) c) = _
  rw [lift_axis1]

theorem pay7_apply (x1 x2 : Vec Ideal S1x1024x3 .f32) (c : Fin 1024) :
    k0_pay7 (F := Ideal) x1 x2 (ix2 0 c) = Finset.univ.inf fun r : Fin 1024 => k0_pay5 (F := Ideal) x1 x2 (ix2 r c) := by
  unfold k0_pay7
  refine (shapeCast_a_1a_apply _ _ 0 c).trans ?_
  refine (multiReduction_minimumf_single _ _ _ _ _ (ix1 c)).trans ?_
  show (Finset.univ : Finset (Fin 1024)).fold min (Ideal.ofBits .f32 0x7F800000#32) _ = _
  rw [ofBits_inf_f32]
  refine (Finset.fold_congr fun r _ => ?_).trans rfl
  show k0_pay5 (F := Ideal) x1 x2 (reduces_S1024x1024_S1024_2.lift (ix1 c) r) = _
  rw [lift_axis0]

theorem pay8_apply (x1 x2 : Vec Ideal S1x1024x3 .f32) (r : Fin 1024) :
    k0_pay8 (F := Ideal) x1 x2 (ix2 r 0) = k0_pay6 (F := Ideal) x1 x2 (ix2 r 0) := by
  unfold k0_pay8
  rw [shapeCast_self]

theorem pay9_apply (x1 x2 : Vec Ideal S1x1024x3 .f32) (s : Vec Ideal S1024x1 .f32) (r : Fin 1024) :
    k0_pay9 (F := Ideal) x1 x2 s (ix2 r 0) = min (s (ix2 r 0)) (k0_pay6 (F := Ideal) x1 x2 (ix2 r 0)) := by
  unfold k0_pay9
  rw [shapeCast_self]
  rfl

end Cert.KernelIdeal.PayValue

end
-- ==== Proof.KernelValue1.lean ====
/-
  The kernel's two carried buffers and its two result arrays as mathematics, at the ideal values.

  The grid's point n is (batch n / 64, row tile n / 8 mod 8, column tile n mod 8); a tile is 1024 points of a
  cloud.  At a point the kernel's tile of clipped squared distances is d2 between the row tile's points of the
  first cloud and the column tile's points of the second.  The running row minima after point n are, for each
  row of the row tile, the infimum of d2 over the columns of the column tiles swept so far; the running column
  minima are, for each column, the infimum over the rows of the row tiles that have met that column's tile so
  far.  After a row sweep's last column tile the row minima are dist1; after a batch's last point the column
  minima are dist2.
-/
import proofs.«122788_j81475529605150_1_alg».proof.Proof.BodyDefs
import proofs.«122788_j81475529605150_1_alg».proof.Proof.PayValue
import proofs.«122788_j81475529605150_1_alg».proof.Proof.Spec
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## Tiles of a cloud's 8192 points -/

/-- The batch of point n. -/
def bat (n : ℕ) : Fin 4 := ⟨n / 64 % 4, Nat.mod_lt _ (by decide)⟩
/-- Point r of tile q (taken mod 8) as a point of the cloud. -/
def inTile (q : ℕ) (r : Fin 1024) : Fin 8192 := ⟨1024 * (q % 8) + r.val, by have := r.isLt; omega⟩
/-- The points of tile q. -/
def tile (q : ℕ) : Finset (Fin 8192) := Finset.univ.filter fun k => k.val / 1024 = q
/-- The points of the tiles below q. -/
def below (q : ℕ) : Finset (Fin 8192) := Finset.univ.filter fun k => k.val / 1024 < q

theorem below_succ (q : ℕ) : below (q + 1) = below q ∪ tile q := by
  ext k
  simp only [below, tile, Finset.mem_filter, Finset.mem_univ, true_and, Finset.mem_union]
  omega

theorem below_one : below 1 = tile 0 := by
  ext k
  simp only [below, tile, Finset.mem_filter, Finset.mem_univ, true_and]
  omega

theorem below_eight : below 8 = Finset.univ := by
  ext k
  simp only [below, Finset.mem_filter, Finset.mem_univ, true_and, iff_true]
  have := k.isLt; omega

/-- Tile q is the image of its 1024 points. -/
theorem tile_image (q : ℕ) : Finset.univ.image (inTile q) = tile (q % 8) := by
  ext k
  simp only [tile, Finset.mem_image, Finset.mem_filter, Finset.mem_univ, true_and]
  constructor
  · rintro ⟨r, rfl⟩
    show (1024 * (q % 8) + r.val) / 1024 = q % 8
    have := r.isLt; omega
  · intro h
    refine ⟨⟨k.val % 1024, Nat.mod_lt _ (by decide)⟩, Fin.ext ?_⟩
    show 1024 * (q % 8) + k.val % 1024 = k.val
    omega

/-- An infimum over a tile's 1024 points is the infimum over the tile. -/
theorem inf_tile (q : ℕ) (g : Fin 8192 → EReal) : (Finset.univ.inf fun r : Fin 1024 => g (inTile q r)) = (tile (q % 8)).inf g := by
  rw [← tile_image, Finset.inf_image]
  rfl

variable (m : (ℓ : Loc nD τ sig) → Buf (Elt Ideal) ℓ)

/-- The two clouds as the region finds them. -/
abbrev X (c : Dev nD) : Cert.Chamfer.SCloud.Idx → EReal := m ((c.tc : Thread nD τ).loc main_arg0)
abbrev Y (c : Dev nD) : Cert.Chamfer.SCloud.Idx → EReal := m ((c.tc : Thread nD τ).loc main_arg1)

/-! ## The input blocks -/

/-- The windows' index maps over the grid: the first cloud's block follows (batch, row tile), the second's (batch, column
    tile); the row minima's block follows (batch, row tile), the column minima's the batch. -/
theorem idx_0 : ∀ t : Fin cfg0.N, win0_0.index t (0 : Fin 3) = t.val / 64 ∧ win0_0.index t (1 : Fin 3) = t.val / 8 % 8 ∧ win0_0.index t (2 : Fin 3) = 0 :=
  (by decide +kernel : ∀ t : Fin grid0.N, _)
theorem idx_1 : ∀ t : Fin cfg0.N, win0_1.index t (0 : Fin 3) = t.val / 64 ∧ win0_1.index t (1 : Fin 3) = t.val % 8 ∧ win0_1.index t (2 : Fin 3) = 0 :=
  (by decide +kernel : ∀ t : Fin grid0.N, _)
theorem idx_2 : ∀ t : Fin cfg0.N, win0_2.index t (0 : Fin 3) = t.val / 64 ∧ win0_2.index t (1 : Fin 3) = t.val / 8 % 8 ∧ win0_2.index t (2 : Fin 3) = 0 :=
  (by decide +kernel : ∀ t : Fin grid0.N, _)
theorem idx_3 : ∀ t : Fin cfg0.N, win0_3.index t (0 : Fin 3) = t.val / 64 ∧ win0_3.index t (1 : Fin 3) = 0 ∧ win0_3.index t (2 : Fin 3) = 0 :=
  (by decide +kernel : ∀ t : Fin grid0.N, _)

theorem lt_N (t : Fin cfg0.N) : t.val < 256 := lt_of_lt_of_eq t.isLt N_0

/-- The first cloud's block at a point: the row tile's points of the point's batch. -/
theorem xb1_apply (c : Dev nD) (t : Fin cfg0.N) (r : Fin 1024) (d : Fin 3) :
    Body.xb1 (F := Ideal) m c t (ix3 0 r d) = X m c (ix3 (bat t.val) (inTile (t.val / 8) r) d) := by
  obtain ⟨e0, e1, e2⟩ := idx_0 t
  have ht := lt_N t
  unfold Body.xb1 iblk
  rw [View.read_apply]
  show V m c main_arg0 _ = _
  rw [V_main_arg0]
  refine congrArg (X m c) (funext fun a => Fin.ext ?_)
  match a with
  | ⟨0, _⟩ => show win0_0.index t (0 : Fin 3) * 1 + 1 * 0 = t.val / 64 % 4; rw [e0]; omega
  | ⟨1, _⟩ => show win0_0.index t (1 : Fin 3) * 1024 + 1 * r.val = 1024 * (t.val / 8 % 8) + r.val; rw [e1]; omega
  | ⟨2, _⟩ => show win0_0.index t (2 : Fin 3) * 3 + 1 * d.val = d.val; rw [e2]; omega

/-- The second cloud's block at a point: the column tile's points of the point's batch. -/
theorem xb2_apply (c : Dev nD) (t : Fin cfg0.N) (r : Fin 1024) (d : Fin 3) :
    Body.xb2 (F := Ideal) m c t (ix3 0 r d) = Y m c (ix3 (bat t.val) (inTile t.val r) d) := by
  obtain ⟨e0, e1, e2⟩ := idx_1 t
  have ht := lt_N t
  unfold Body.xb2 iblk
  rw [View.read_apply]
  show V m c main_arg1 _ = _
  rw [V_main_arg1]
  refine congrArg (Y m c) (funext fun a => Fin.ext ?_)
  match a with
  | ⟨0, _⟩ => show win0_1.index t (0 : Fin 3) * 1 + 1 * 0 = t.val / 64 % 4; rw [e0]; omega
  | ⟨1, _⟩ => show win0_1.index t (1 : Fin 3) * 1024 + 1 * r.val = 1024 * (t.val % 8) + r.val; rw [e1]; omega
  | ⟨2, _⟩ => show win0_1.index t (2 : Fin 3) * 3 + 1 * d.val = d.val; rw [e2]; omega

/-! ## The tile of clipped squared distances, its row minima and its column minima -/

theorem tile_apply (c : Dev nD) (t : Fin cfg0.N) (r c' : Fin 1024) :
    k0_pay5 (F := Ideal) (Body.xb1 (F := Ideal) m c t) (Body.xb2 (F := Ideal) m c t) (ix2 r c')
      = Cert.Chamfer.d2 (X m c) (Y m c) (bat t.val) (inTile (t.val / 8) r) (inTile t.val c') := by
  rw [PayValue.pay5_apply]
  unfold Cert.Chamfer.d2 Cert.Chamfer.sq Cert.Chamfer.cross
  refine congrArg₂ max (congrArg₂ (· - ·) (congrArg₂ (· + ·) (Finset.sum_congr rfl fun d _ => ?_)
    (Finset.sum_congr rfl fun d _ => ?_)) (congrArg₂ (· * ·) rfl (Finset.sum_congr rfl fun d _ => ?_))) rfl
  · rw [xb1_apply]
  · rw [xb2_apply]
  · rw [xb1_apply, xb2_apply]

/-- The tile's row minima: over the column tile's points. -/
theorem tileRow (c : Dev nD) (t : Fin cfg0.N) (r : Fin 1024) :
    k0_pay6 (F := Ideal) (Body.xb1 (F := Ideal) m c t) (Body.xb2 (F := Ideal) m c t) (ix2 r 0)
      = (tile (t.val % 8)).inf fun k => Cert.Chamfer.d2 (X m c) (Y m c) (bat t.val) (inTile (t.val / 8) r) k := by
  rw [PayValue.pay6_apply, ← inf_tile]
  exact congrArg (Finset.inf Finset.univ) (funext fun c' => tile_apply m c t r c')

/-- The tile's column minima: over the row tile's points. -/
theorem tileCol (c : Dev nD) (t : Fin cfg0.N) (c' : Fin 1024) :
    k0_pay7 (F := Ideal) (Body.xb1 (F := Ideal) m c t) (Body.xb2 (F := Ideal) m c t) (ix2 0 c')
      = (tile (t.val / 8 % 8)).inf fun k => Cert.Chamfer.d2 (X m c) (Y m c) (bat t.val) k (inTile t.val c') := by
  rw [PayValue.pay7_apply, ← inf_tile]
  exact congrArg (Finset.inf Finset.univ) (funext fun r => tile_apply m c t r c')

/-! ## The running row minima -/

theorem bat_succ (n : ℕ) (h : (n + 1) % 64 ≠ 0) : bat n = bat (n + 1) := Fin.ext (by show n / 64 % 4 = (n + 1) / 64 % 4; omega)

theorem inTile_div_succ (n : ℕ) (h : (n + 1) % 8 ≠ 0) (r : Fin 1024) : inTile (n / 8) r = inTile ((n + 1) / 8) r :=
  Fin.ext (by show 1024 * (n / 8 % 8) + r.val = 1024 * ((n + 1) / 8 % 8) + r.val; omega)

/-- After point n, row r of the row tile holds the infimum of d2 over the columns of the column tiles swept so far. -/
theorem sc0At_apply (c : Dev nD) : ∀ (n : ℕ) (hn : n < cfg0.N) (r : Fin 1024),
    Body.sc0At (F := Ideal) m c n hn (ix2 r 0)
      = (below (n % 8 + 1)).inf fun k => Cert.Chamfer.d2 (X m c) (Y m c) (bat n) (inTile (n / 8) r) k
  | 0, hn, r => by
    rw [Body.sc0At_zero, Body.new0_first _ _ _ _ ((Body.hcondA ⟨0, hn⟩).mpr rfl), PayValue.pay8_apply, tileRow]
    show (tile 0).inf _ = (below 1).inf _
    rw [below_one]
  | n + 1, hn, r => by
    by_cases h8 : (n + 1) % 8 = 0
    · rw [Body.sc0At_succ, Body.new0_first _ _ _ _ ((Body.hcondA ⟨n + 1, hn⟩).mpr h8), PayValue.pay8_apply, tileRow]
      show (tile ((n + 1) % 8)).inf _ = (below ((n + 1) % 8 + 1)).inf _
      rw [h8, below_one]
    · rw [Body.sc0At_succ, Body.new0_later _ _ _ _ (mt (Body.hcondA ⟨n + 1, hn⟩).mp h8), PayValue.pay9_apply, tileRow,
        sc0At_apply c n (Nat.lt_of_succ_lt hn) r]
      show min ((below (n % 8 + 1)).inf _) ((tile ((n + 1) % 8)).inf _) = (below ((n + 1) % 8 + 1)).inf _
      rw [bat_succ n (by omega), inTile_div_succ n h8 r, show n % 8 + 1 = (n + 1) % 8 by omega, below_succ, Finset.inf_union]

/-! ## One point's effect on the running column minima -/

/-- Column j of the buffer is entry j mod 1024 of the rectangle of the point's column tile. -/
theorem col_emb (off : Fin 2 → ℕ) (inb : ∀ a, off a + S1x1024.size a ≤ S1x8192.size a) (q : ℕ) (hoff : off = ![0, q * 1024])
    (j : Fin 8192) (hj : j.val / 1024 = q) :
    (Rect.unit (s := S1x8192) off S1x1024.size inb).emb (ix2 (0 : Fin 1) (⟨j.val % 1024, Nat.mod_lt _ (by decide)⟩ : Fin 1024))
      = ix2 (0 : Fin 1) j := by
  subst hoff
  refine funext fun a => Fin.ext ?_
  match a with
  | ⟨0, _⟩ => rfl
  | ⟨1, _⟩ => show q * 1024 + 1 * (j.val % 1024) = j.val; omega

theorem col_not_mem (off : Fin 2 → ℕ) (inb : ∀ a, off a + S1x1024.size a ≤ S1x8192.size a) (q : ℕ) (hoff : off = ![0, q * 1024])
    (j : Fin 8192) (hj : j.val / 1024 ≠ q) :
    ix2 (0 : Fin 1) j ∉ (Rect.unit (s := S1x8192) off S1x1024.size inb).set := by
  subst hoff
  rw [Rect.mem_set_unit]
  intro h
  have h1 : q * 1024 ≤ j.val ∧ j.val < q * 1024 + 1024 := h 1
  omega

/-- Inside the point's column tile: the tile's column minimum at a batch's first row tile, else its minimum with what
    the buffer held. -/
theorem new1_in (t : Fin cfg0.N) (x1 x2 : Vec Ideal S1x1024x3 .f32) (s1 : Vec Ideal S1x8192 .f32) (j : Fin 8192)
    (hj : j.val / 1024 = t.val % 8) :
    Body.new1 (F := Ideal) (grid0.coords t) x1 x2 s1 (ix2 0 j)
      = if t.val / 8 % 8 = 0 then k0_pay7 (F := Ideal) x1 x2 (ix2 0 (⟨j.val % 1024, Nat.mod_lt _ (by decide)⟩ : Fin 1024))
        else min (s1 (ix2 0 j)) (k0_pay7 (F := Ideal) x1 x2 (ix2 0 (⟨j.val % 1024, Nat.mod_lt _ (by decide)⟩ : Fin 1024))) := by
  by_cases h3 : t.val / 8 % 8 = 0
  · have c3 := (Body.hcond3 t).mpr h3
    rw [if_pos h3, Body.new1_first _ _ _ _ c3, ← col_emb _ (k0_off1_inb _ c3) _ (Body.hoff1 t) j hj, Rect.overlay_emb,
      PayValue.pay1_apply]
  · have c3 := mt (Body.hcond3 t).mp h3
    have c4 := (Body.g34 t).mpr c3
    have e := col_emb _ (k0_off2_inb _ c4) _ (Body.hoff2 t) j hj
    rw [if_neg h3, Body.new1_later _ _ _ _ c3 c4]
    refine (congrArg _ e.symm).trans ((Rect.overlay_emb _ _ _ _).trans ?_)
    rw [PayValue.pay2_apply]
    exact congrArg (fun z => min (s1 z) _) e

/-- Outside the point's column tile the buffer keeps what it held. -/
theorem new1_out (t : Fin cfg0.N) (x1 x2 : Vec Ideal S1x1024x3 .f32) (s1 : Vec Ideal S1x8192 .f32) (j : Fin 8192)
    (hj : j.val / 1024 ≠ t.val % 8) :
    Body.new1 (F := Ideal) (grid0.coords t) x1 x2 s1 (ix2 0 j) = s1 (ix2 0 j) := by
  by_cases h3 : t.val / 8 % 8 = 0
  · have c3 := (Body.hcond3 t).mpr h3
    rw [Body.new1_first _ _ _ _ c3]
    exact Rect.overlay_of_not_mem _ _ _ (col_not_mem _ _ _ (Body.hoff1 t) j hj)
  · have c3 := mt (Body.hcond3 t).mp h3
    have c4 := (Body.g34 t).mpr c3
    rw [Body.new1_later _ _ _ _ c3 c4]
    exact Rect.overlay_of_not_mem _ _ _ (col_not_mem _ _ _ (Body.hoff2 t) j hj)

/-! ## The running column minima -/

/-- How many row tiles of the batch have met column j's tile after point n: one more than the point's row tile if the
    sweep has reached the column's tile, else the point's row tile. -/
def cnt (n : ℕ) (j : Fin 8192) : ℕ := if j.val / 1024 ≤ n % 8 then n / 8 % 8 + 1 else n / 8 % 8

theorem inTile_mod (n : ℕ) (j : Fin 8192) (hj : j.val / 1024 = n % 8) :
    inTile n (⟨j.val % 1024, Nat.mod_lt _ (by decide)⟩ : Fin 1024) = j :=
  Fin.ext (by show 1024 * (n % 8) + j.val % 1024 = j.val; omega)

/-- The tile's column minimum at a column of the cloud that lies in the point's column tile. -/
theorem tileCol' (c : Dev nD) (t : Fin cfg0.N) (j : Fin 8192) (hj : j.val / 1024 = t.val % 8) :
    k0_pay7 (F := Ideal) (Body.xb1 (F := Ideal) m c t) (Body.xb2 (F := Ideal) m c t)
        (ix2 0 (⟨j.val % 1024, Nat.mod_lt _ (by decide)⟩ : Fin 1024))
      = (tile (t.val / 8 % 8)).inf fun k => Cert.Chamfer.d2 (X m c) (Y m c) (bat t.val) k j := by
  rw [tileCol, inTile_mod t.val j hj]

/-- After point n, a column whose tile some row tile of the batch has met holds the infimum of d2 over the rows of those row
    tiles. -/
theorem sc1At_apply (c : Dev nD) : ∀ (n : ℕ) (hn : n < cfg0.N) (j : Fin 8192), 0 < cnt n j →
    Body.sc1At (F := Ideal) m c n hn (ix2 0 j)
      = (below (cnt n j)).inf fun k => Cert.Chamfer.d2 (X m c) (Y m c) (bat n) k j
  | 0, hn, j, hpos => by
    have hj : j.val / 1024 = 0 := by
      by_contra h
      have : cnt 0 j = 0 := by unfold cnt; rw [if_neg (by omega)]
      omega
    have hc : cnt 0 j = 1 := by unfold cnt; rw [if_pos (by omega)]
    rw [Body.sc1At_zero, new1_in ⟨0, hn⟩ _ _ _ j hj, if_pos (by show (0 : ℕ) / 8 % 8 = 0; decide), tileCol' m c ⟨0, hn⟩ j hj, hc, below_one]
    show (tile (0 / 8 % 8)).inf (fun k => Cert.Chamfer.d2 (X m c) (Y m c) (bat 0) k j) = _
    rw [show (0 : ℕ) / 8 % 8 = 0 from by decide]
  | n + 1, hn, j, hpos => by
    have hN : n + 1 < 256 := lt_of_lt_of_eq hn N_0
    have hjlt := j.isLt
    by_cases hj : j.val / 1024 = (n + 1) % 8
    · rw [Body.sc1At_succ, new1_in ⟨n + 1, hn⟩ _ _ _ j hj]
      have hc : cnt (n + 1) j = (n + 1) / 8 % 8 + 1 := by unfold cnt; rw [if_pos (by omega)]
      by_cases h3 : (n + 1) / 8 % 8 = 0
      · rw [if_pos h3, tileCol' m c ⟨n + 1, hn⟩ j hj, hc]
        show (tile ((n + 1) / 8 % 8)).inf (fun k => Cert.Chamfer.d2 (X m c) (Y m c) (bat (n + 1)) k j) = _
        rw [h3, below_one]
      · have hcn : cnt n j = (n + 1) / 8 % 8 := by unfold cnt; split_ifs <;> omega
        rw [if_neg h3, tileCol' m c ⟨n + 1, hn⟩ j hj, sc1At_apply c n (Nat.lt_of_succ_lt hn) j (by omega), hc, hcn]
        show min ((below ((n + 1) / 8 % 8)).inf _) ((tile ((n + 1) / 8 % 8)).inf
          (fun k => Cert.Chamfer.d2 (X m c) (Y m c) (bat (n + 1)) k j)) = _
        rw [bat_succ n (by omega), below_succ, Finset.inf_union]
    · have hcn : cnt n j = cnt (n + 1) j := by unfold cnt at hpos ⊢; split_ifs at hpos ⊢ <;> omega
      have hb : (n + 1) % 64 ≠ 0 := by unfold cnt at hpos; split_ifs at hpos <;> omega
      rw [Body.sc1At_succ, new1_out ⟨n + 1, hn⟩ _ _ _ j hj, sc1At_apply c n (Nat.lt_of_succ_lt hn) j (by omega), hcn, bat_succ n hb]

end Cert.KernelIdeal.KernelValue

end
-- ==== Proof.KernelValue.lean ====
/-
  The kernel's two result arrays after the run, at the ideal values: the array of row minima ends holding dist1 of the two
  clouds and the array of column minima dist2.  A row sweep's last point writes back its block of the row minima, which by
  then range over all 8192 columns; a batch's last point writes back the column minima, which by then range over all 8192
  rows; those blocks cover the arrays.
-/
import proofs.«122788_j81475529605150_1_alg».proof.Proof.KernelValue1
import proofs.«122788_j81475529605150_1_alg».proof.Proof.BodyDefs
import proofs.«122788_j81475529605150_1_alg».proof.Proof.PayValue
import proofs.«122788_j81475529605150_1_alg».proof.Proof.Spec
import Idealize.ShloMosaic.Lib.Pipeline.Value

set_option maxRecDepth 16384

noncomputable section

namespace Cert.KernelIdeal.KernelValue

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The row minima's array -/

/-- What a row sweep's last point writes back: its block of dist1. -/
theorem flushed2_eq (c : Dev nD) (t : Fin cfg0.N) (hf : (cfg0.win 2).flush t = true) :
    (Body.dats (F := Ideal) m 0 c).flushed 2 t
      = ((cfg0.win 2).blk t).view.read (Elt Ideal)
          (fun i : S4x8192x1.Idx => Cert.Chamfer.dist1 (X m c) (Y m c) (i 0) (i 1)) := by
  have h7 : t.val % 8 = 7 := (flush0_2 t).mp hf
  obtain ⟨e0, e1, e2⟩ := idx_2 t
  have ht := lt_N t
  show (cfg0.win 2).cut (grid0.coords t) ((Body.dats (F := Ideal) m 0 c).after 2 t) = _
  rw [Body.after0_2]
  have key : ∀ y : S1x1024x1.Idx, k0_pay3 (F := Ideal) (Body.sc0At (F := Ideal) m c t.val t.isLt) y
      = Cert.Chamfer.dist1 (X m c) (Y m c) ((((cfg0.win 2).blk t).view.emb y) 0) ((((cfg0.win 2).blk t).view.emb y) 1) := by
    intro y
    obtain ⟨u, r, z, rfl⟩ : ∃ (u : Fin 1) (r : Fin 1024) (z : Fin 1), y = ix3 u r z := ⟨y 0, y 1, y 2, eq_ix3 y⟩
    obtain rfl : u = 0 := Subsingleton.elim _ _
    obtain rfl : z = 0 := Subsingleton.elim _ _
    have a0 : (((cfg0.win 2).blk t).view.emb (ix3 (0 : Fin 1) r (0 : Fin 1))) 0 = bat t.val :=
      Fin.ext (by show win0_2.index t (0 : Fin 3) * 1 + 1 * 0 = t.val / 64 % 4; rw [e0]; omega)
    have a1 : (((cfg0.win 2).blk t).view.emb (ix3 (0 : Fin 1) r (0 : Fin 1))) 1 = inTile (t.val / 8) r :=
      Fin.ext (by show win0_2.index t (1 : Fin 3) * 1024 + 1 * r.val = 1024 * (t.val / 8 % 8) + r.val; rw [e1]; omega)
    rw [PayValue.pay3_apply, sc0At_apply, h7, below_eight, a0, a1]
    rfl
  exact funext key

/-- Every row of every batch is in the block of its row sweep's last point. -/
theorem cover2 (i : S4x8192x1.Idx) : ∃ t : Fin cfg0.N, (cfg0.win 2).flush t = true ∧ i ∈ ((cfg0.win 2).blk t).view.set := by
  have h0 : (i 0).val < 4 := (i 0).isLt
  have h1 : (i 1).val < 8192 := (i 1).isLt
  have h2 : (i 2).val < 1 := (i 2).isLt
  let t : Fin cfg0.N := ⟨64 * (i 0).val + 8 * ((i 1).val / 1024) + 7, by rw [show cfg0.N = 256 from N_0]; omega⟩
  have tv : t.val = 64 * (i 0).val + 8 * ((i 1).val / 1024) + 7 := rfl
  obtain ⟨e0, e1, e2⟩ := idx_2 t
  refine ⟨t, (flush0_2 t).mpr (by rw [tv]; omega), ?_⟩
  show i ∈ ((View.whole main_v0_0).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; rw [e0, tv]; omega
  | ⟨1, _⟩ => show win0_2.index t (1 : Fin 3) * 1024 ≤ (i 1).val ∧ (i 1).val < win0_2.index t (1 : Fin 3) * 1024 + 1024; rw [e1, tv]; omega
  | ⟨2, _⟩ => show win0_2.index t (2 : Fin 3) * 1 ≤ (i 2).val ∧ (i 2).val < win0_2.index t (2 : Fin 3) * 1 + 1; rw [e2]; omega

/-! ## The column minima's array -/

/-- What a batch's last point writes back: its block of dist2. -/
theorem flushed3_eq (c : Dev nD) (t : Fin cfg0.N) (hf : (cfg0.win 3).flush t = true) :
    (Body.dats (F := Ideal) m 0 c).flushed 3 t
      = ((cfg0.win 3).blk t).view.read (Elt Ideal)
          (fun i : S4x1x8192.Idx => Cert.Chamfer.dist2 (X m c) (Y m c) (i 0) (i 2)) := by
  have h63 : t.val % 64 = 63 := (flush0_3 t).mp hf
  obtain ⟨e0, e1, e2⟩ := idx_3 t
  have ht := lt_N t
  show (cfg0.win 3).cut (grid0.coords t) ((Body.dats (F := Ideal) m 0 c).after 3 t) = _
  rw [Body.after0_3]
  have key : ∀ y : S1x1x8192.Idx, k0_pay4 (F := Ideal) (Body.sc1At (F := Ideal) m c t.val t.isLt) y
      = Cert.Chamfer.dist2 (X m c) (Y m c) ((((cfg0.win 3).blk t).view.emb y) 0) ((((cfg0.win 3).blk t).view.emb y) 2) := by
    intro y
    obtain ⟨u, z, j, rfl⟩ : ∃ (u : Fin 1) (z : Fin 1) (j : Fin 8192), y = ix3 u z j := ⟨y 0, y 1, y 2, eq_ix3 y⟩
    obtain rfl : u = 0 := Subsingleton.elim _ _
    obtain rfl : z = 0 := Subsingleton.elim _ _
    have hj := j.isLt
    have a0 : (((cfg0.win 3).blk t).view.emb (ix3 (0 : Fin 1) (0 : Fin 1) j)) 0 = bat t.val :=
      Fin.ext (by show win0_3.index t (0 : Fin 3) * 1 + 1 * 0 = t.val / 64 % 4; rw [e0]; omega)
    have a2 : (((cfg0.win 3).blk t).view.emb (ix3 (0 : Fin 1) (0 : Fin 1) j)) 2 = j :=
      Fin.ext (by show win0_3.index t (2 : Fin 3) * 8192 + 1 * j.val = j.val; rw [e2]; omega)
    have hc : cnt t.val j = 8 := by unfold cnt; rw [if_pos (by omega)]; omega
    rw [PayValue.pay4_apply, sc1At_apply m c t.val t.isLt j (by omega), hc, below_eight, a0, a2]
    rfl
  exact funext key

/-- Every column of every batch is in the block of its batch's last point. -/
theorem cover3 (i : S4x1x8192.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  let t : Fin cfg0.N := ⟨64 * (i 0).val + 63, by rw [show cfg0.N = 256 from N_0]; omega⟩
  have tv : t.val = 64 * (i 0).val + 63 := rfl
  obtain ⟨e0, e1, e2⟩ := idx_3 t
  refine ⟨t, (flush0_3 t).mpr (by rw [tv]; omega), ?_⟩
  show i ∈ ((View.whole main_v0_1).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; rw [e0, tv]; omega
  | ⟨1, _⟩ => show win0_3.index t (1 : Fin 3) * 1 ≤ (i 1).val ∧ (i 1).val < win0_3.index t (1 : Fin 3) * 1 + 1; rw [e1]; omega
  | ⟨2, _⟩ => show win0_3.index t (2 : Fin 3) * 8192 ≤ (i 2).val ∧ (i 2).val < win0_3.index t (2 : Fin 3) * 8192 + 8192; rw [e2]; omega

/-! ## The two arrays after the run -/

theorem arr2_eq (c : Dev nD) : (Body.dats (F := Ideal) m 0 c).arrAt 2 cfg0.N
    = (fun i : S4x8192x1.Idx => Cert.Chamfer.dist1 (X m c) (Y m c) (i 0) (i 1)) :=
  (Body.dats (F := Ideal) m 0 c).arrAt_eq_of_cover 2 _ (flushed2_eq m c) (cover2)

theorem arr3_eq (c : Dev nD) : (Body.dats (F := Ideal) m 0 c).arrAt 3 cfg0.N
    = (fun i : S4x1x8192.Idx => Cert.Chamfer.dist2 (X m c) (Y m c) (i 0) (i 2)) :=
  (Body.dats (F := Ideal) m 0 c).arrAt_eq_of_cover 3 _ (flushed3_eq m c) (cover3)

end Cert.KernelIdeal.KernelValue

end
-- ==== Proof.KernelTail.lean ====
/-
  The kernel program's closing host operations, read as the mathematics of Spec.lean.

  After its one region the program reshapes the region's two result arrays, 4 × 8192 × 1 and 4 × 1 × 8192, to
  4 × 8192 each, sums each over all its entries from zero, divides each sum by 32768 and adds the two quotients:
  `Cert.Chamfer.meanSum` of the two reshaped arrays.  Given that the region leaves the least distances `dist1` in the
  first array (at (b, n, 0)) and `dist2` in the second (at (b, 0, k)), the two reshaped arrays are `D1` and `D2`:
  a reshape keeps the row-major position, and a unit axis does not move it.
-/
import proofs.«122788_j81475529605150_1_alg».proof.Proof.BodyDefs
import proofs.«122788_j81475529605150_1_alg».proof.Proof.Spec
import Idealize.ShloMosaic.Lib.StableHlo.Run
import Idealize.ShloMosaic.Lib.Pipeline.FrameSuffix
import Idealize.ShloMosaic.Lib.Pipeline.Value
import Idealize.ShloMosaic.Lib.ValueIdx

noncomputable section

namespace Cert.KernelIdeal.KernelTail

open Cert.KernelIdeal Cert.KernelIdeal.Gen Idealize.ShloMosaic Idealize.ShloMosaic.TcCoe Idealize.SL.Sem
open Idealize.ShloMosaic.ValueIdx

/-! ## The two reshapes -/

/-- The 4 × 8192 × 1 array of least distances from the points of `x`, reshaped to 4 × 8192, is `D1`. -/
theorem cast1 (x y : Cert.Chamfer.SCloud.Idx → EReal) (h : S4x8192x1.ShapeCasts S4x8192) :
    shapeCast S4x8192 (fun i : S4x8192x1.Idx => Cert.Chamfer.dist1 x y (i 0) (i 1)) h = Cert.Chamfer.D1 x y := by
  funext j
  obtain ⟨b, n, rfl⟩ : ∃ (b : Fin 4) (n : Fin 8192), j = ix2 b n := ⟨j 0, j 1, eq_ix2 j⟩
  refine (shapeCast_apply _ h (ix2 b n) (ix3 b n (0 : Fin 1)) ?_).trans rfl
  rw [Shape.rowMajor_val_three, Shape.rowMajor_val_two]
  show (b.val * 8192 + n.val) * 1 + 0 = b.val * 8192 + n.val
  omega

/-- The 4 × 1 × 8192 array of least distances from the points of `y`, reshaped to 4 × 8192, is `D2`. -/
theorem cast2 (x y : Cert.Chamfer.SCloud.Idx → EReal) (h : S4x1x8192.ShapeCasts S4x8192) :
    shapeCast S4x8192 (fun i : S4x1x8192.Idx => Cert.Chamfer.dist2 x y (i 0) (i 2)) h = Cert.Chamfer.D2 x y := by
  funext j
  obtain ⟨b, k, rfl⟩ : ∃ (b : Fin 4) (k : Fin 8192), j = ix2 b k := ⟨j 0, j 1, eq_ix2 j⟩
  refine (shapeCast_apply _ h (ix2 b k) (ix3 b (0 : Fin 1) k) ?_).trans rfl
  rw [Shape.rowMajor_val_three, Shape.rowMajor_val_two]
  show (b.val * 1 + 0) * 8192 + k.val = b.val * 8192 + k.val
  omega

/-! ## The result -/

/-- From a run of the program to the frame's post, with the region's two result arrays holding the least distances:
    the program's result is the mean of `D1` plus the mean of `D2` of the two arguments, and the arguments are unchanged. -/
theorem run_spec_of (m : (ℓ : Loc nD τ sig) → Buf (Elt Ideal) ℓ) (ρ : Dev nD → PrngReg)
    (h : θ_run (defs (F := Ideal)) (onTc (τ := τ) (main (F := Ideal))) (s₀ m ρ)
      (Pipeline.FramePost cfgs (Body.dats (F := Ideal) m) 0 (Pipeline.afterTail₀ cfgs (Body.dats (F := Ideal) m) 0 (V0 m) [hostOps1])))
    (h2 : ∀ c : Dev nD, (Body.dats (F := Ideal) m 0 c).arrAt 2 cfg0.N
      = (fun i : S4x8192x1.Idx => Cert.Chamfer.dist1 (m ((c.tc : Thread nD τ).loc main_arg0)) (m ((c.tc : Thread nD τ).loc main_arg1)) (i 0) (i 1)))
    (h3 : ∀ c : Dev nD, (Body.dats (F := Ideal) m 0 c).arrAt 3 cfg0.N
      = (fun i : S4x1x8192.Idx => Cert.Chamfer.dist2 (m ((c.tc : Thread nD τ).loc main_arg0)) (m ((c.tc : Thread nD τ).loc main_arg1)) (i 0) (i 2))) :
    θ_run (defs (F := Ideal)) (onTc (τ := τ) (main (F := Ideal))) ⟨m, fun _ => 0, ρ⟩ fun r => ∀ c : Dev nD,
      r.2.mem ((c.tc : Thread nD τ).loc main_v7)
        = Cert.Chamfer.meanSum reducesTo_S4x8192_S_d0_1 h_S_
            (Cert.Chamfer.D1 (m ((c.tc : Thread nD τ).loc main_arg0)) (m ((c.tc : Thread nD τ).loc main_arg1)))
            (Cert.Chamfer.D2 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun r hp c => ⟨?_,
    ((hp c).1 0).trans (((Body.dats (F := Ideal) m 0 c).arrAt_in 0 rfl _).trans ((Body.A_eq m c 0).trans (V_main_arg0 m c))),
    ((hp c).1 1).trans (((Body.dats (F := Ideal) m 0 c).arrAt_in 1 rfl _).trans ((Body.A_eq m c 1).trans (V_main_arg1 m c)))⟩) h
  refine ((hp c).2 main_v7 (Pipeline.mem_restRefs_of main_v7 rfl (by decide))).trans ?_
  unfold Pipeline.afterTail₀
  show StableHlo.after hostOps1 _ (Proc.devRef .tc main_v7) = _
  after_results
  have w2 : Pipeline.withArrays (cfgs 0).spec c (V0 m c) (fun w => (Body.dats (F := Ideal) m 0 c).arrAt w (cfgs 0).N)
        (Proc.devRef .tc main_v0_0)
      = (fun i : S4x8192x1.Idx => Cert.Chamfer.dist1 (m ((c.tc : Thread nD τ).loc main_arg0))
          (m ((c.tc : Thread nD τ).loc main_arg1)) (i 0) (i 1)) :=
    (Pipeline.withArrays_arr spec0 launch0.win.arr_inj c (V0 m c)
      (fun w => (Body.dats (F := Ideal) m 0 c).arrAt w cfg0.N) 2).trans (h2 c)
  have w3 : Pipeline.withArrays (cfgs 0).spec c (V0 m c) (fun w => (Body.dats (F := Ideal) m 0 c).arrAt w (cfgs 0).N)
        (Proc.devRef .tc main_v0_1)
      = (fun i : S4x1x8192.Idx => Cert.Chamfer.dist2 (m ((c.tc : Thread nD τ).loc main_arg0))
          (m ((c.tc : Thread nD τ).loc main_arg1)) (i 0) (i 2)) :=
    (Pipeline.withArrays_arr spec0 launch0.win.arr_inj c (V0 m c)
      (fun w => (Body.dats (F := Ideal) m 0 c).arrAt w cfg0.N) 3).trans (h3 c)
  rw [w2, w3, ← cast1 _ _ shapeCasts_S4x8192x1_S4x8192, ← cast2 _ _ shapeCasts_S4x1x8192_S4x8192]
  rfl

end Cert.KernelIdeal.KernelTail

end
-- ==== Proof.RefValue.lean ====
/-
  The reference program's result as the mathematics of Spec.lean.

  The run module gives the result buffer as the composed term of the two arguments.  Its closing
  arithmetic (two sums over all entries, two divisions by 32768, one addition) is, syntactically, the
  function `Cert.Chamfer.meanSum` of the two min-reduced arrays; so all that is proved here is that the
  array reduced over its last axis is `D1 x y` and the one reduced over its middle axis is `D2 x y`.

  Each is read index by index: a minimum-reduce over one axis is the fold of `min` from the initial
  word (+∞, the top of the extended reals) over that axis's coordinates, which is the infimum over the
  finite index set; and the reduced array's entry at (b, n, k) is the clipped polarised squared distance
  `d2 x y b n k`, read through the pointwise operations, the two broadcast chains and the three sums
  over the coordinate axis.
-/
import proofs.«122788_j81475529605150_1_alg».proof.Proof.Gen.ReferenceIdeal.Read
import proofs.«122788_j81475529605150_1_alg».proof.Proof.Spec
import Idealize.ShloMosaic.PureOps.Reduce
import Idealize.ShloMosaic.PureOps.Ideal.Laws
import Idealize.ShloMosaic.Lib.ValueIdx
import Mathlib.Order.Lattice
import Mathlib.Data.Finset.Lattice.Fold

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-! ## The squared-distance array at an index -/

/-- The row of squared norms of `x`, read at (b, n, ·) through both broadcasts, sits at the points of `x`. -/
theorem idx_row (b : Fin 4) (n k : Fin 8192) (d : Fin 3) :
    Read.idx_main_v1 (Read.idx_main_v5 (Read.idx_main_v7 (ix3 b n k))) d = ix3 b n d :=
  funext fun a => by match a with | ⟨0, _⟩ => rfl | ⟨1, _⟩ => rfl | ⟨2, _⟩ => rfl

/-- The column of squared norms of `y`, read at (b, ·, k) through both broadcasts, sits at the points of `y`. -/
theorem idx_col (b : Fin 4) (n k : Fin 8192) (d : Fin 3) :
    Read.idx_main_v3 (Read.idx_main_v6 (Read.idx_main_v8 (ix3 b n k))) d = ix3 b k d :=
  funext fun a => by match a with | ⟨0, _⟩ => rfl | ⟨1, _⟩ => rfl | ⟨2, _⟩ => rfl

/-- The contraction reads `x` at point `n` … -/
theorem idx_lhs (b : Fin 4) (n k : Fin 8192) (d : Fin 3) :
    Read.lidx_main_v4 (ix3 b n k) d = ix3 b n d :=
  funext fun a => by match a with | ⟨0, _⟩ => rfl | ⟨1, _⟩ => rfl | ⟨2, _⟩ => rfl

/-- … and `y` at point `k`, both in batch `b`. -/
theorem idx_rhs (b : Fin 4) (n k : Fin 8192) (d : Fin 3) :
    Read.ridx_main_v4 (ix3 b n k) d = ix3 b k d :=
  funext fun a => by match a with | ⟨0, _⟩ => rfl | ⟨1, _⟩ => rfl | ⟨2, _⟩ => rfl

/-- The array both reductions read has, at (b, n, k), the clipped squared distance of point `n` of `x`
    and point `k` of `y` in batch `b`. -/
theorem v14_apply (x y : Cert.Chamfer.SCloud.Idx → EReal) (b : Fin 4) (n k : Fin 8192) :
    Read.val_main_v14 (F := Ideal) x y (ix3 b n k) = Cert.Chamfer.d2 x y b n k := by
  rw [Read.val_main_v14_apply, Read.val_main_v12_apply, Read.val_main_v13_apply, Read.val_main_cst_2_apply,
    Read.val_main_v9_apply, Read.val_main_v11_apply, Read.val_main_v7_apply, Read.val_main_v5_apply,
    Read.val_main_v1_apply, Read.val_main_v8_apply, Read.val_main_v6_apply, Read.val_main_v3_apply,
    Read.val_main_v10_apply, Read.val_main_cst_1_apply, Read.val_main_v4_apply, Read.val_main_cst_apply,
    Read.val_main_cst_0_apply]
  simp only [Read.val_main_v0_apply, Read.val_main_v2_apply, idx_row, idx_col, idx_lhs, idx_rhs,
    Ideal.ofBits_def, Ideal.mulf_def, Ideal.addf_def, Ideal.subf_def, Ideal.maximumf_def]
  show _ = max (Cert.Chamfer.sq x b n + Cert.Chamfer.sq y b k - Cert.Chamfer.two * Cert.Chamfer.cross x y b n k)
    Cert.Chamfer.zero
  refine congrArg₂ max (congrArg₂ (· - ·) (congrArg₂ (· + ·) ?_ ?_) rfl) rfl
  · rw [Ideal.ofBits_zero_f32, zero_add]; rfl
  · rw [Ideal.ofBits_zero_f32, zero_add]; rfl

/-! ## A minimum-reduce over one axis is an infimum -/

/-- The word the two minimum-reduces start from is +∞, the top of the extended reals. -/
theorem inf_word : Ideal.ofBits .f32 0x7F800000#32 = (⊤ : EReal) := by simp [Ideal.ofBits, Ideal.ieee]

/-- The fold of `min` from +∞ over a finite index set is the infimum over it. -/
theorem fold_min_eq_inf {ι : Type} [Fintype ι] (g : ι → EReal) :
    (Finset.univ : Finset ι).fold (FloatOps.minimumf (F := Ideal) (φ := .f32)) (Ideal.ofBits .f32 0x7F800000#32) g
      = Finset.univ.inf g := by
  rw [inf_word]; rfl

/-- Dropping the last axis of the 4 × 8192 × 8192 array leaves the 4 × 8192 one … -/
theorem red2 : S4x8192x8192.Reduces [2] S4x8192 := by decide
/-- … and so does dropping the middle axis. -/
theorem red1 : S4x8192x8192.Reduces [1] S4x8192 := by decide

/-- Over (b, n), inserting `k` on the last axis gives (b, n, k). -/
theorem lift2 (b : Fin 4) (n k : Fin 8192) : red2.lift (ix2 b n) k = ix3 b n k := by
  funext c
  apply Fin.ext
  match c with
  | ⟨0, _⟩ => rfl
  | ⟨1, _⟩ => rfl
  | ⟨2, _⟩ => rfl

/-- Over (b, k), inserting `n` on the middle axis gives (b, n, k). -/
theorem lift1 (b : Fin 4) (n k : Fin 8192) : red1.lift (ix2 b k) n = ix3 b n k := by
  funext c
  apply Fin.ext
  match c with
  | ⟨0, _⟩ => rfl
  | ⟨1, _⟩ => rfl
  | ⟨2, _⟩ => rfl

/-- The array reduced over its last axis is the least distance from each point of `x` to the points of `y`. -/
theorem v15_eq (x y : Cert.Chamfer.SCloud.Idx → EReal) :
    Read.val_main_v15 (F := Ideal) x y = Cert.Chamfer.D1 x y := by
  funext j
  obtain ⟨b, n, rfl⟩ : ∃ (b : Fin 4) (n : Fin 8192), j = ix2 b n := ⟨j 0, j 1, eq_ix2 j⟩
  unfold Read.val_main_v15
  refine (Host.reduce_eq_fold_single FloatOps.minimumf _ _ reducesTo_S4x8192x8192_S4x8192_d2 red2 h_S_ (ix2 b n)).trans ?_
  have hf : (Read.val_main_v14 (F := Ideal) x y ∘ red2.lift (ix2 b n))
      = fun k : Fin 8192 => Cert.Chamfer.d2 x y b n k := funext fun k =>
    (congrArg (Read.val_main_v14 (F := Ideal) x y) (lift2 b n k)).trans (v14_apply x y b n k)
  exact (congrArg (fun g : Fin 8192 → EReal => (Finset.univ : Finset (Fin 8192)).fold
    (FloatOps.minimumf (F := Ideal) (φ := .f32)) (Ideal.ofBits .f32 0x7F800000#32) g) hf).trans (fold_min_eq_inf _)

/-- The array reduced over its middle axis is the least distance from each point of `y` to the points of `x`. -/
theorem v16_eq (x y : Cert.Chamfer.SCloud.Idx → EReal) :
    Read.val_main_v16 (F := Ideal) x y = Cert.Chamfer.D2 x y := by
  funext j
  obtain ⟨b, k, rfl⟩ : ∃ (b : Fin 4) (k : Fin 8192), j = ix2 b k := ⟨j 0, j 1, eq_ix2 j⟩
  unfold Read.val_main_v16
  refine (Host.reduce_eq_fold_single FloatOps.minimumf _ _ reducesTo_S4x8192x8192_S4x8192_d1 red1 h_S_ (ix2 b k)).trans ?_
  have hf : (Read.val_main_v14 (F := Ideal) x y ∘ red1.lift (ix2 b k))
      = fun n : Fin 8192 => Cert.Chamfer.d2 x y b n k := funext fun n =>
    (congrArg (Read.val_main_v14 (F := Ideal) x y) (lift1 b n k)).trans (v14_apply x y b n k)
  exact (congrArg (fun g : Fin 8192 → EReal => (Finset.univ : Finset (Fin 8192)).fold
    (FloatOps.minimumf (F := Ideal) (φ := .f32)) (Ideal.ofBits .f32 0x7F800000#32) g) hf).trans (fold_min_eq_inf _)

/-! ## The result -/

/-- The program's result term is the closing arithmetic of the two least-distance arrays. -/
theorem ref_eq (x y : Cert.Chamfer.SCloud.Idx → EReal) :
    Read.val_main_v21 (F := Ideal) x y
      = Cert.Chamfer.meanSum reducesTo_S4x8192_S_d0_1 h_S_ (Cert.Chamfer.D1 x y) (Cert.Chamfer.D2 x y) := by
  rw [← v15_eq, ← v16_eq]
  rfl

/-- Every weakly fair execution of the reference ends with its result at the mean of `D1` plus the mean of `D2` of
    the two arguments, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
        = Cert.Chamfer.meanSum reducesTo_S4x8192_S_d0_1 h_S_
            (Cert.Chamfer.D1 (m ((c.tc : Thread nD τ).loc main_arg0)) (m ((c.tc : Thread nD τ).loc main_arg1)))
            (Cert.Chamfer.D2 (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c =>
      ⟨(h c).1.trans ((Read.val_main_v21_eq (F := Ideal) _ _).trans (ref_eq _ _)), (h c).2.1, (h c).2.2⟩)
    (Value.run (F := Ideal) m ρ)

end Cert.ReferenceIdeal.RefValue

end
-- ==== Proof.lean ====
/-
  The certificate's claims, assembled.

  Both programs compute the mean over the first cloud's points of the least clipped squared distance to the second cloud,
  plus the same with the clouds exchanged.  The kernel sweeps 1024 × 1024 tiles of the distance matrix, keeping running row
  minima (reset at each row sweep's first tile, written out at its last) and running column minima (reset tile by tile over
  a batch's first row sweep, written out at the batch's last point); the reference takes the two minima over whole axes.
  A minimum over 8192 indices is the minimum over eight tiles of the tiles' minima, so the kernel's two result arrays hold
  the reference's two arrays of minima, and the closing sums, quotients and sum are the same operations of equal arrays.
  No law used needs finiteness: minima, and the sums inside a distance, are re-associated only.

  The three frames: the kernel's, word level and idealized, from the body's run at every grid point under the invariant
  that carries the two running minima between points; the reference's from its run.  The idealization rewrote no
  operation, so there is nothing to preserve.
-/
import proofs.«122788_j81475529605150_1_alg».proof.Defs
import proofs.«122788_j81475529605150_1_alg».proof.Proof.Gen.Kernel
import proofs.«122788_j81475529605150_1_alg».proof.Proof.Gen.KernelIdeal
import proofs.«122788_j81475529605150_1_alg».proof.Proof.Gen.ReferenceIdeal
import proofs.«122788_j81475529605150_1_alg».proof.Proof.Gen.ReferenceIdeal.Run
import proofs.«122788_j81475529605150_1_alg».proof.Proof.Gen.ReferenceIdeal.Read
import proofs.«122788_j81475529605150_1_alg».proof.Proof.Gen.Pre_finite_inputs
import proofs.«122788_j81475529605150_1_alg».proof.Proof.BodyRun
import proofs.«122788_j81475529605150_1_alg».proof.Proof.BodyRunBits
import proofs.«122788_j81475529605150_1_alg».proof.Proof.KernelValue
import proofs.«122788_j81475529605150_1_alg».proof.Proof.KernelTail
import proofs.«122788_j81475529605150_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- And the reference: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- At the ideal values both programs end with the mean of dist1 plus the mean of dist2 of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KernelTail.run_spec_of m ρ (Cert.KernelIdeal.Body.run_main m ρ)
    (Cert.KernelIdeal.KernelValue.arr2_eq m) (Cert.KernelIdeal.KernelValue.arr3_eq m), ?_⟩
  refine (θ_run Cert.ReferenceIdeal.defs _ _).mono (fun _ h c => ⟨(h c).1.trans ?_, (h c).2⟩)
    (Cert.ReferenceIdeal.RefValue.run_spec m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
